-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S16x256 .f32) (main_arg12 : FVec F S16 .f32) (main_arg13 : FVec F S256x16 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S16x256 .f32 := Host.absf main_arg11
  let main_cst_20 : FVec F S_ .f32 := constant S_ .f32 0x7F800000#32
  let main_v55 : FVec F S16x256 .f32 := broadcastInDim S16x256 ![] bcast_S_S16x256 main_cst_20
  let main_v56 : IVec S16x256 1 := cmpf .olt main_v54 main_v55
  let main_c_21 : IVec S_ 1 := constantI S_ 1 1#1
  let main_v57 : IVec S_ 1 := (fun x v => Host.reduce IntOp.andi x v reducesTo_S16x256_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S256x16 .f32 := Host.absf main_arg13
  let main_cst_24 : FVec F S_ .f32 := constant S_ .f32 0x7F800000#32
  let main_v65 : FVec F S256x16 .f32 := broadcastInDim S256x16 ![] bcast_S_S256x16 main_cst_24
  let main_v66 : IVec S256x16 1 := cmpf .olt main_v64 main_v65
  let main_c_25 : IVec S_ 1 := constantI S_ 1 1#1
  let main_v67 : IVec S_ 1 := (fun x v => Host.reduce IntOp.andi x v reducesTo_S256x16_S_d0_1 h_S_) main_v66 main_c_25
  fn_part4 (F := F) main_arg14 main_v63 main_v67

def fn_part2 {F : FTy → Type} [FloatOps F] (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) (main_v33 : IVec S_ 1) : IVec S_ 1 :=
  let main_v34 : FVec F S256x16 .f32 := Host.absf main_arg7
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S16x256 .f32) (main_arg6 : FVec F S16 .f32) (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) (main_arg5 : FVec F S16x256 .f32) (main_arg6 : FVec F S16 .f32) (main_arg7 : FVec F S256x16 .f32) (main_arg8 : FVec F S256 .f32) (main_arg9 : FVec F S256x512 .f32) (main_arg10 : FVec F S256 .f32) (main_arg11 : FVec F S16x256 .f32) (main_arg12 : FVec F S16 .f32) (main_arg13 : FVec F S256x16 .f32) (main_arg14 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S8x256x8x128 : Shape := ⟨4, ![8, 256, 8, 128]⟩
abbrev S8x256 : Shape := ⟨2, ![8, 256]⟩
abbrev S8x256x8 : Shape := ⟨3, ![8, 256, 8]⟩
abbrev S16x16 : Shape := ⟨2, ![16, 16]⟩
abbrev S1x16 : Shape := ⟨2, ![1, 16]⟩
abbrev S_ : Shape := ⟨0, ![]⟩
abbrev S1x256 : Shape := ⟨2, ![1, 256]⟩
abbrev S16x512 : Shape := ⟨2, ![16, 512]⟩
abbrev S8x128x8x128 : Shape := ⟨4, ![8, 128, 8, 128]⟩
abbrev S8x128 : Shape := ⟨2, ![8, 128]⟩
abbrev S8x128x1x1 : Shape := ⟨4, ![8, 128, 1, 1]⟩

abbrev nBuf : Space → Nat
  | .hbm => 67
  | .vmem => 14
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S256x16, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S16x256, .f32⟩
  | .hbm, ⟨12, _⟩ => ⟨S16, .f32⟩
  | .hbm, ⟨13, _⟩ => ⟨S256x16, .f32⟩
  | .hbm, ⟨14, _⟩ => ⟨S256, .f32⟩
  | .hbm, ⟨15, _⟩ => ⟨S16x256, .f32⟩
  | .hbm, ⟨16, _⟩ => ⟨S16x256, .f32⟩
  | .hbm, ⟨17, _⟩ => ⟨S16x16, .f32⟩
  | .hbm, ⟨18, _⟩ => ⟨S1x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S16x256, .f32⟩
  | .hbm, ⟨25, _⟩ => ⟨S1x256, .f32⟩
  | .hbm, ⟨26, _⟩ => ⟨S16x256, .f32⟩
  | .hbm, ⟨27, _⟩ => ⟨S16x256, .f32⟩
  | .hbm, ⟨28, _⟩ => ⟨S16x16, .f32⟩
  | .hbm, ⟨29, _⟩ => ⟨S1x16, .f32⟩
  | .hbm, ⟨30, _⟩ => ⟨S16x16, .f32⟩
  | .hbm, ⟨31, _⟩ => ⟨S16x16, .f32⟩
  | .hbm, ⟨32, _⟩ => ⟨S_, .f32⟩
  | .hbm, ⟨33, _⟩ => ⟨S16x16, .f32⟩
  | .hbm, ⟨34, _⟩ => ⟨S16x16, .f32⟩
  | .hbm, ⟨35, _⟩ => ⟨S16x256, .f32⟩
  | .hbm, ⟨36, _⟩ => ⟨S1x256, .f32⟩
  | .hbm, ⟨37, _⟩ => ⟨S16x256, .f32⟩
  | .hbm, ⟨38, _⟩ => ⟨S16x256, .f32⟩
  | .hbm, ⟨39, _⟩ => ⟨S16x512, .f32⟩
  | .hbm, ⟨40, _⟩ => ⟨S16x256, .f32⟩
  | .hbm, ⟨41, _⟩ => ⟨S1x256, .f32⟩
  | .hbm, ⟨42, _⟩ => ⟨S16x256, .f32⟩
  | .hbm, ⟨43, _⟩ => ⟨S16x256, .f32⟩
  | .hbm, ⟨44, _⟩ => ⟨S_, .f32⟩
  | .hbm, ⟨45, _⟩ => ⟨S16x256, .f32⟩
  | .hbm, ⟨46, _⟩ => ⟨S16x256, .f32⟩
  | .hbm, ⟨47, _⟩ => ⟨S16x16, .f32⟩
  | .hbm, ⟨48, _⟩ => ⟨S1x16, .f32⟩
  | .hbm, ⟨49, _⟩ => ⟨S16x16, .f32⟩
  | .hbm, ⟨50, _⟩ => ⟨S16x16, .f32⟩
  | .hbm, ⟨51, _⟩ => ⟨S_, .f32⟩
  | .hbm, ⟨52, _⟩ => ⟨S16x16, .f32⟩
  | .hbm, ⟨53, _⟩ => ⟨S16x16, .f32⟩
  | .hbm, ⟨54, _⟩ => ⟨S16x256, .f32⟩
  | .hbm, ⟨55, _⟩ => ⟨S1x256, .f32⟩
  | .hbm, ⟨56, _⟩ => ⟨S16x256, .f32⟩
  | .hbm, ⟨57, _⟩ => ⟨S16x256, .f32⟩
  | .hbm, ⟨58, _⟩ => ⟨S16x256, .f32⟩
  | .hbm, ⟨59, _⟩ => ⟨S16x256, .f32⟩
  | .hbm, ⟨60, _⟩ => ⟨S_, .f32⟩
  | .hbm, ⟨61, _⟩ => ⟨S16x256, .f32⟩
  | .hbm, ⟨62, _⟩ => ⟨S16x256, .f32⟩
  | .hbm, ⟨63, _⟩ => ⟨S_, .f32⟩
  | .hbm, ⟨64, _⟩ => ⟨S16x256, .f32⟩
  | .hbm, ⟨65, _⟩ => ⟨S16x256, .f32⟩
  | .hbm, ⟨66, _⟩ => ⟨S16x256x128x128, .f32⟩
  | .local _ .vmem, ⟨0, _⟩ => ⟨S8x256x8x128, .f32⟩
  | .local _ .vmem, ⟨1, _⟩ => ⟨S8x256x8x128, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x128x8x128, .f32⟩
  | .local _ .vmem, ⟨9, _⟩ => ⟨S8x128x8x128, .f32⟩
  | .local _ .vmem, ⟨10, _⟩ => ⟨S8x128, .f32⟩
  | .local _ .vmem, ⟨11, _⟩ => ⟨S8x128, .f32⟩
  | .local _ .vmem, ⟨12, _⟩ => ⟨S8x128x8x128, .f32⟩
  | .local _ .vmem, ⟨13, _⟩ => ⟨S8x128x8x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_cst : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_cst : Ref sig .tc := ⟨.hbm, 44, rfl⟩
abbrev main_call2_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call3_cst : Ref sig .tc := ⟨.hbm, 51, rfl⟩
abbrev main_call3_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_v37 : Ref sig .tc := ⟨.hbm, 62, rfl⟩
abbrev main_cst_0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![2, 2, 16], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x8x128_S8x256x8x128_0_0_0_0 : ∀ a, (![0, 0, 0, 0] : Fin 4 → Nat) a + S8x256x8x128.size a ≤ S8x256x8x128.size a
  h_S8x256x8x128 : 0 < S8x256x8x128.numel
  reduces_S8x256x8x128_S8x256x8 : S8x256x8x128.Reduces [3] S8x256x8
  reduces_S8x256x8_S8x256 : S8x256x8.Reduces [2] S8x256
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  concatenates_S16x256_S16x256_S16x512_d1 : Shape.Concatenates [S16x256, S16x256] S16x512 1
  bcast_S_S16x256 : S_.BroadcastsInDim S16x256 (![] : Fin 0 → Fin S16x256.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1x1 : S8x128.ShapeCasts S8x128x1x1
  shapeCasts_S8x128x1x1_S8x128x1x1 : S8x128x1x1.ShapeCasts S8x128x1x1
  broadcasts_S8x128x1x1_S8x128x8x128 : S8x128x1x1.Broadcasts S8x128x8x128
  inb_S8x128x8x128_S8x128x8x128_0_0_0_0 : ∀ a, (![0, 0, 0, 0] : Fin 4 → Nat) a + S8x128x8x128.size a ≤ S8x128x8x128.size a
  h_S8x128x8x128 : 0 < S8x128x8x128.numel
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  dot_S16x512_S256x512_S16x256_1_1_0_0_n_n_wf : DotDims.WF S16x512 S256x512 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x128.size a ≤ S16x256x128x128.size a
  hwx0_0 : ∀ i : grid0.Coords, EltTy.bits .f32 = 32 ∨ (Rect.block (s := S16x256x128x128) S8x256x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S16x256.size a
  hwx0_1 : ∀ i : grid0.Coords, EltTy.bits .f32 = 32 ∨ (Rect.block (s := S16x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x256.size a
  hwx0_2 : ∀ i : grid0.Coords, EltTy.bits .f32 = 32 ∨ (Rect.block (s := S16x256) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x8x128.size a ≤ S16x256x128x128.size a
  hwx1_0 : ∀ i : grid1.Coords, EltTy.bits .f32 = 32 ∨ (Rect.block (s := S16x256x128x128) S8x128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S16x256.size a
  hwx1_1 : ∀ i : grid1.Coords, EltTy.bits .f32 = 32 ∨ (Rect.block (s := S16x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x8x128.size a ≤ S16x256x128x128.size a
  hwx1_2 : ∀ i : grid1.Coords, EltTy.bits .f32 = 32 ∨ (Rect.block (s := S16x256x128x128) S8x128x8x128.size (cc1_transform_2 i) (hinb1_2 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf
def dot_S16x512_S256x512_S16x256_1_1_0_0_n_n : DotDims S16x512 S256x512 S16x256 where
  lhsContracting := [1]
  rhsContracting := [1]
  lhsNonContracting := [0]
  rhsNonContracting := [0]
  lhsBatch := []
  rhsBatch := []
  wf := dot_S16x512_S256x512_S16x256_1_1_0_0_n_n_wf

abbrev win0_0 : Pipeline.Window sig grid0 :=
  Pipeline.Window.ofSpec (Memref.whole main_arg0) S8x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S8x128x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x512 : Shape := ⟨2, ![256, 512]⟩
abbrev S_ : Shape := ⟨0, ![]⟩
abbrev S16x256x1x1 : Shape := ⟨4, ![16, 256, 1, 1]⟩
abbrev S16x16 : Shape := ⟨2, ![16, 16]⟩
abbrev S1x16 : Shape := ⟨2, ![1, 16]⟩
abbrev S1x256 : Shape := ⟨2, ![1, 256]⟩
abbrev S16x512 : Shape := ⟨2, ![16, 512]⟩

abbrev nBuf : Space → Nat
  | .hbm => 82
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S256x16, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S16x256, .f32⟩
  | .hbm, ⟨12, _⟩ => ⟨S16, .f32⟩
  | .hbm, ⟨13, _⟩ => ⟨S256x16, .f32⟩
  | .hbm, ⟨14, _⟩ => ⟨S256, .f32⟩
  | .hbm, ⟨15, _⟩ => ⟨S_, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256x1x1, .f32⟩
  | .hbm, ⟨21, _⟩ => ⟨S16x256x128x128, .f32⟩
  | .hbm, ⟨22, _⟩ => ⟨S16x256x128x128, .f32⟩
  | .hbm, ⟨23, _⟩ => ⟨S16x256x128x128, .f32⟩
  | .hbm, ⟨24, _⟩ => ⟨S_, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S16x16, .f32⟩
  | .hbm, ⟨31, _⟩ => ⟨S1x16, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S16x16, .f32⟩
  | .hbm, ⟨36, _⟩ => ⟨S16x16, .f32⟩
  | .hbm, ⟨37, _⟩ => ⟨S16x256, .f32⟩
  | .hbm, ⟨38, _⟩ => ⟨S1x256, .f32⟩
  | .hbm, ⟨39, _⟩ => ⟨S16x256, .f32⟩
  | .hbm, ⟨40, _⟩ => ⟨S16x256, .f32⟩
  | .hbm, ⟨41, _⟩ => ⟨S16x16, .f32⟩
  | .hbm, ⟨42, _⟩ => ⟨S1x16, .f32⟩
  | .hbm, ⟨43, _⟩ => ⟨S16x16, .f32⟩
  | .hbm, ⟨44, _⟩ => ⟨S16x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S16x256, .f32⟩
  | .hbm, ⟨49, _⟩ => ⟨S1x256, .f32⟩
  | .hbm, ⟨50, _⟩ => ⟨S16x256, .f32⟩
  | .hbm, ⟨51, _⟩ => ⟨S16x256, .f32⟩
  | .hbm, ⟨52, _⟩ => ⟨S16x512, .f32⟩
  | .hbm, ⟨53, _⟩ => ⟨S16x256, .f32⟩
  | .hbm, ⟨54, _⟩ => ⟨S1x256, .f32⟩
  | .hbm, ⟨55, _⟩ => ⟨S16x256, .f32⟩
  | .hbm, ⟨56, _⟩ => ⟨S16x256, .f32⟩
  | .hbm, ⟨57, _⟩ => ⟨S_, .f32⟩
  | .hbm, ⟨58, _⟩ => ⟨S16x256, .f32⟩
  | .hbm, ⟨59, _⟩ => ⟨S16x256, .f32⟩
  | .hbm, ⟨60, _⟩ => ⟨S16x16, .f32⟩
  | .hbm, ⟨61, _⟩ => ⟨S1x16, .f32⟩
  | .hbm, ⟨62, _⟩ => ⟨S16x16, .f32⟩
  | .hbm, ⟨63, _⟩ => ⟨S16x16, .f32⟩
  | .hbm, ⟨64, _⟩ => ⟨S_, .f32⟩
  | .hbm, ⟨65, _⟩ => ⟨S16x16, .f32⟩
  | .hbm, ⟨66, _⟩ => ⟨S16x16, .f32⟩
  | .hbm, ⟨67, _⟩ => ⟨S16x256, .f32⟩
  | .hbm, ⟨68, _⟩ => ⟨S1x256, .f32⟩
  | .hbm, ⟨69, _⟩ => ⟨S16x256, .f32⟩
  | .hbm, ⟨70, _⟩ => ⟨S16x256, .f32⟩
  | .hbm, ⟨71, _⟩ => ⟨S16x256, .f32⟩
  | .hbm, ⟨72, _⟩ => ⟨S16x256, .f32⟩
  | .hbm, ⟨73, _⟩ => ⟨S_, .f32⟩
  | .hbm, ⟨74, _⟩ => ⟨S16x256, .f32⟩
  | .hbm, ⟨75, _⟩ => ⟨S16x256, .f32⟩
  | .hbm, ⟨76, _⟩ => ⟨S_, .f32⟩
  | .hbm, ⟨77, _⟩ => ⟨S16x256, .f32⟩
  | .hbm, ⟨78, _⟩ => ⟨S16x256, .f32⟩
  | .hbm, ⟨79, _⟩ => ⟨S16x256x1x1, .f32⟩
  | .hbm, ⟨80, _⟩ => ⟨S16x256x128x128, .f32⟩
  | .hbm, ⟨81, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_cst : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_cst : Ref sig .tc := ⟨.hbm, 57, rfl⟩
abbrev main_call2_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call3_cst : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  concatenates_S16x256_S16x256_S16x512_d1 : Shape.Concatenates [S16x256, S16x256] S16x512 1
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  dot_S16x512_S256x512_S16x256_1_1_0_0_n_n_wf : DotDims.WF S16x512 S256x512 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf
def dot_S16x512_S256x512_S16x256_1_1_0_0_n_n : DotDims S16x512 S256x512 S16x256 where
  lhsContracting := [1]
  rhsContracting := [1]
  lhsNonContracting := [0]
  rhsNonContracting := [0]
  lhsBatch := []
  rhsBatch := []
  wf := dot_S16x512_S256x512_S16x256_1_1_0_0_n_n_wf

class Facts : Prop extends Facts₀ where

variable [Facts]
-- ==== Proof.Bits.StatsBody.lean ====
/-
  The statistics kernel's body, run once per control case. A grid point (bo, ho) of the 2 x 16 grid sees one
  block x of shape 8 x 256 x 8 x 128 and two accumulators a, b of shape 8 x 256 that live across the 16 steps of ho:
    first step (ho = 0):   a := 0 + sum_{h,w} x,   b := 0 + sum_{h,w} x*x
    middle steps:          a := a + sum_{h,w} x,   b := b + sum_{h,w} x*x
    last step (ho = 15):   the same update, then mean := a / 16384 and std := sqrt (max (b / 16384 - mean*mean) 0)
  are stored into the two output blocks. Every store covers its whole buffer, so each buffer ends at one payload.
-/
import proofs.«109344_j12446815224180_1_alg».proof.Proof.Gen.Kernel.Skeleton
import proofs.«109344_j12446815224180_1_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition, from the grid coordinates: the step index ho is 0. -/
abbrev isFirst (i : grid0.Coords) : Prop :=
  (Scalar.cmpi .ne (Scalar.extui (Scalar.cmpi .eq (BitVec.ofNat 32 (i 1).val) 0#32)) 0#32) = 1#1
/-- The body's second branch condition: the step index ho is 15, the last. -/
abbrev isLast (i : grid0.Coords) : Prop := k0_cond2 i = 1#1

/-- The accumulators after a step that starts from a and b. -/
abbrev accStep (x0 : Vec F S8x256x8x128 .f32) (a b : Vec F S8x256 .f32) : Vec F S8x256 .f32 × Vec F S8x256 .f32 :=
  (k0_pay3 x0 a, k0_pay4 x0 b)

/-- The zero offsets of a two-axis and of a four-axis whole rectangle. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- One whole-rectangle piece covers the accumulator's shape, whatever lies under it. -/
theorem cover_whole (p : Vec F S8x256 .f32) (L : List (View.Piece (Elt F) S8x256 .f32)) (y : S8x256.Idx) :
    ∃ pc ∈ ((⟨Rect.unit (s := S8x256) ![0, 0] S8x256.size inb_S8x256_S8x256_0_0, p⟩ : View.Piece (Elt F) S8x256 .f32) :: L), y ∈ pc.1.set :=
  ⟨_, List.mem_cons_self, View.mem_set_unit_zero (S := S8x256) hz2 inb_S8x256_S8x256_0_0 y⟩

/-- First step: both accumulators are reset to zero and then take the block's sums; the outputs are not touched. -/
theorem stats_first (c : Dev nD) (E : Set ℕ) (i : grid0.Coords)
    (xr : Memref sig .tc .vmem S8x256x8x128 .f32) (hx : xr.IsWhole) (mr : Memref sig .tc .vmem S8x256 .f32) (hm : mr.IsWhole)
    (sr : Memref sig .tc .vmem S8x256 .f32) (hs : sr.IsWhole) (ar : Memref sig .tc .vmem S8x256 .f32) (ha : ar.IsWhole)
    (br : Memref sig .tc .vmem S8x256 .f32) (hb : br.IsWhole) (hf : isFirst i) (hl : ¬ isLast i)
    (x0 : Vec F S8x256x8x128 .f32) (K : PUnit → sProp 𝕄) :
    iprop(owns (c : Thread nD τ) xr fullShare x0 ∗ (∃ d, owns (c : Thread nD τ) ar fullShare d) ∗ (∃ d, owns (c : Thread nD τ) br fullShare d)
        ∗ (iprop(owns (c : Thread nD τ) xr fullShare x0 ∗ owns (c : Thread nD τ) ar fullShare (k0_pay3 x0 (k0_pay1 (F := F)))
            ∗ owns (c : Thread nD τ) br fullShare (k0_pay4 x0 (k0_pay2 (F := F)))) -∗ K ⟨⟩))
      ⊢ wp frame (wpE (defs₀ (F := F)) Variants.none c none) E (cc0__stats_kernel i xr hx mr hm sr hs ar ha br hb) K := by
  simp only [cc0__stats_kernel_eq_skeleton]; unfold cc0__stats_kernel_skel
  unfold owns
  iintro ⟨⟨%f0, %hf0, H0⟩, ⟨%da, %fa, -, HA⟩, ⟨%db, %fb, -, HB⟩, Hk⟩
  obtain rfl := hx.eq_unread hf0
  sl_exec (disch := first | exact hf | exact hl)
  sl_step
  iapply Hk
  isplitl [H0]
  · iexists _; isplitr; · ipureintro; exact hx.read_unread _
    iexact H0
  isplitl [HA]
  · iexists _; isplitr
    swap; · iexact HA
    ipureintro
    rw [View.read_writes_eq_canon _ _ _ (cover_whole _ _)]
    sl_unfold_words
    rw [View.canon_cons_unit_zero (S := S8x256) hz2, View.readCov_unit_zero (S := S8x256) _ hz2]
    simp only [View.readAt_eq_ld, hx.read_unread, View.ld_unit_zero (S := S8x256x8x128) hz4]
  · iexists _; isplitr
    swap; · iexact HB
    ipureintro
    rw [View.read_writes_eq_canon _ _ _ (cover_whole _ _)]
    sl_unfold_words
    rw [View.canon_cons_unit_zero (S := S8x256) hz2, View.readCov_unit_zero (S := S8x256) _ hz2]
    simp only [View.readAt_eq_ld, hx.read_unread, View.ld_unit_zero (S := S8x256x8x128) hz4]

/-- A middle step: the accumulators take the block's sums on top of what they held. -/
theorem stats_mid (c : Dev nD) (E : Set ℕ) (i : grid0.Coords)
    (xr : Memref sig .tc .vmem S8x256x8x128 .f32) (hx : xr.IsWhole) (mr : Memref sig .tc .vmem S8x256 .f32) (hm : mr.IsWhole)
    (sr : Memref sig .tc .vmem S8x256 .f32) (hs : sr.IsWhole) (ar : Memref sig .tc .vmem S8x256 .f32) (ha : ar.IsWhole)
    (br : Memref sig .tc .vmem S8x256 .f32) (hb : br.IsWhole) (hf : ¬ isFirst i) (hl : ¬ isLast i)
    (x0 : Vec F S8x256x8x128 .f32) (a b : Vec F S8x256 .f32) (K : PUnit → sProp 𝕄) :
    iprop(owns (c : Thread nD τ) xr fullShare x0 ∗ owns (c : Thread nD τ) ar fullShare a ∗ owns (c : Thread nD τ) br fullShare b
        ∗ (iprop(owns (c : Thread nD τ) xr fullShare x0 ∗ owns (c : Thread nD τ) ar fullShare (k0_pay3 x0 a)
            ∗ owns (c : Thread nD τ) br fullShare (k0_pay4 x0 b)) -∗ K ⟨⟩))
      ⊢ wp frame (wpE (defs₀ (F := F)) Variants.none c none) E (cc0__stats_kernel i xr hx mr hm sr hs ar ha br hb) K := by
  simp only [cc0__stats_kernel_eq_skeleton]; unfold cc0__stats_kernel_skel
  unfold owns
  iintro ⟨⟨%f0, %hf0, H0⟩, ⟨%fa, %hfa, HA⟩, ⟨%fb, %hfb, HB⟩, Hk⟩
  obtain rfl := hx.eq_unread hf0; obtain rfl := ha.eq_unread hfa; obtain rfl := hb.eq_unread hfb
  sl_exec (disch := first | exact hf | exact hl)
  sl_step
  iapply Hk
  isplitl [H0]
  · iexists _; isplitr; · ipureintro; exact hx.read_unread _
    iexact H0
  isplitl [HA]
  · iexists _; isplitr
    swap; · iexact HA
    ipureintro
    rw [View.read_writes_eq_canon _ _ _ (cover_whole _ _), View.canon_unit_zero hz2]
    simp only [View.readAt_eq_ld, hx.read_unread, ha.read_unread, View.ld_unit_zero (S := S8x256) hz2,
      View.ld_unit_zero (S := S8x256x8x128) hz4]
  · iexists _; isplitr
    swap; · iexact HB
    ipureintro
    rw [View.read_writes_eq_canon _ _ _ (cover_whole _ _), View.canon_unit_zero hz2]
    simp only [View.readAt_eq_ld, hx.read_unread, hb.read_unread, View.ld_unit_zero (S := S8x256) hz2,
      View.ld_unit_zero (S := S8x256x8x128) hz4]

/-- The last step: the same update, then the mean and the standard deviation are stored into the two outputs. -/
theorem stats_last (c : Dev nD) (E : Set ℕ) (i : grid0.Coords)
    (xr : Memref sig .tc .vmem S8x256x8x128 .f32) (hx : xr.IsWhole) (mr : Memref sig .tc .vmem S8x256 .f32) (hm : mr.IsWhole)
    (sr : Memref sig .tc .vmem S8x256 .f32) (hs : sr.IsWhole) (ar : Memref sig .tc .vmem S8x256 .f32) (ha : ar.IsWhole)
    (br : Memref sig .tc .vmem S8x256 .f32) (hb : br.IsWhole) (hf : ¬ isFirst i) (hl : isLast i)
    (x0 : Vec F S8x256x8x128 .f32) (a b : Vec F S8x256 .f32) (K : PUnit → sProp 𝕄) :
    iprop(owns (c : Thread nD τ) xr fullShare x0 ∗ (∃ d, owns (c : Thread nD τ) mr fullShare d) ∗ (∃ d, owns (c : Thread nD τ) sr fullShare d)
        ∗ owns (c : Thread nD τ) ar fullShare a ∗ owns (c : Thread nD τ) br fullShare b
        ∗ (iprop(owns (c : Thread nD τ) xr fullShare x0
            ∗ owns (c : Thread nD τ) mr fullShare (k0_pay5 (k0_pay3 x0 a))
            ∗ owns (c : Thread nD τ) sr fullShare (k0_pay6 (k0_pay3 x0 a) (k0_pay4 x0 b))
            ∗ owns (c : Thread nD τ) ar fullShare (k0_pay3 x0 a)
            ∗ owns (c : Thread nD τ) br fullShare (k0_pay4 x0 b)) -∗ K ⟨⟩))
      ⊢ wp frame (wpE (defs₀ (F := F)) Variants.none c none) E (cc0__stats_kernel i xr hx mr hm sr hs ar ha br hb) K := by
  simp only [cc0__stats_kernel_eq_skeleton]; unfold cc0__stats_kernel_skel
  unfold owns
  iintro ⟨⟨%f0, %hf0, H0⟩, ⟨%dm, %fm, -, HM⟩, ⟨%ds, %fs, -, HS⟩, ⟨%fa, %hfa, HA⟩, ⟨%fb, %hfb, HB⟩, Hk⟩
  obtain rfl := hx.eq_unread hf0; obtain rfl := ha.eq_unread hfa; obtain rfl := hb.eq_unread hfb
  sl_exec (disch := first | exact hf | exact hl)
  sl_step
  iapply Hk
  isplitl [H0]
  · iexists _; isplitr; · ipureintro; exact hx.read_unread _
    iexact H0
  isplitl [HM]
  · iexists _; isplitr
    swap; · iexact HM
    ipureintro
    rw [View.read_writes_eq_canon _ _ _ (cover_whole _ _), View.canon_unit_zero hz2]
    sl_unfold_words
    simp only [View.readCov_unit_zero (S := S8x256) _ hz2, View.readAt_eq_ld, hx.read_unread, ha.read_unread,
      View.ld_unit_zero (S := S8x256) hz2, View.ld_unit_zero (S := S8x256x8x128) hz4]
  isplitl [HS]
  · iexists _; isplitr
    swap; · iexact HS
    ipureintro
    rw [View.read_writes_eq_canon _ _ _ (cover_whole _ _), View.canon_unit_zero hz2]
    sl_unfold_words
    simp only [View.readCov_unit_zero (S := S8x256) _ hz2, View.readAt_eq_ld, hx.read_unread, ha.read_unread,
      hb.read_unread, View.ld_unit_zero (S := S8x256) hz2, View.ld_unit_zero (S := S8x256x8x128) hz4]
  isplitl [HA]
  · iexists _; isplitr
    swap; · iexact HA
    ipureintro
    sl_unfold_words
    rw [View.read_writes_eq_canon _ _ _ (cover_whole _ _), View.canon_unit_zero hz2]
    simp only [View.readAt_eq_ld, hx.read_unread, ha.read_unread, View.ld_unit_zero (S := S8x256) hz2,
      View.ld_unit_zero (S := S8x256x8x128) hz4]
  · iexists _; isplitr
    swap; · iexact HB
    ipureintro
    sl_unfold_words
    rw [View.read_writes_eq_canon _ _ _ (cover_whole _ _), View.canon_unit_zero hz2]
    simp only [View.readAt_eq_ld, hx.read_unread, hb.read_unread, View.ld_unit_zero (S := S8x256) hz2,
      View.ld_unit_zero (S := S8x256x8x128) hz4]

end Cert.Kernel.Hand

end
-- ==== Proof.Bits.StatsData.lean ====
/-
  The statistics kernel's pipeline, region 0 of the program, at a parameter V (the buffer contents when the region
  is entered). The grid is 2 x 16: point t = 16 bo + ho sees the block x[8bo.., :, 8ho.., :]. Two scratch accumulators
  live across the 16 steps of a batch block: after point t they hold the sums of x and of x*x over the steps so far of
  t's batch block (reset at ho = 0). The two output windows (mean, std) are idle except at ho = 15, where the body
  stores mean = a / 16384 and std = sqrt (max (b / 16384 - mean^2) 0) of the completed sums and the pipeline writes
  the blocks back.
-/
import proofs.«109344_j12446815224180_1_alg».proof.Proof.Bits.StatsBody
import proofs.«109344_j12446815224180_1_alg».proof.Proof.Gen.Kernel.Points
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point, for any proof data over V that leave it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions in closed form, and where the output windows are idle -/

theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)

theorem live0_0 : ∀ t : Fin cfg0.N, cfg0.idle 0 (grid0.coords t) = false := by decide +kernel
theorem idle0_1 : ∀ t : Fin cfg0.N, ¬ isLast (grid0.coords t) → cfg0.idle 1 (grid0.coords t) = true := by decide +kernel
theorem noFlush0_1 : ∀ t : Fin cfg0.N, ¬ isLast (grid0.coords t) → (cfg0.win 1).flush t = false := by decide +kernel
theorem live0_1 : ∀ t : Fin cfg0.N, isLast (grid0.coords t) → cfg0.idle 1 (grid0.coords t) = false := by decide +kernel
theorem idle0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
theorem live0_2 : ∀ t : Fin cfg0.N, isLast (grid0.coords t) → cfg0.idle 2 (grid0.coords t) = false := by decide +kernel

/-! ## The staging memrefs and the two scratch accumulators -/

abbrev ms0_0 (t : Fin cfg0.N) : Memref sig .tc .vmem S8x256x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
/-- The accumulator of the sums of x, and the accumulator of the sums of x*x. -/
abbrev scA : Memref sig .tc .vmem S8x256 .f32 := Memref.whole cc0_scratch0
abbrev scB : Memref sig .tc .vmem S8x256 .f32 := Memref.whole cc0_scratch1

/-- THE ACCUMULATION: what the two accumulators hold after the body at position n. At the first step of a batch
    block (n a multiple of 16) the block's sums over zero; otherwise the block's sums over what the step before left. -/
def accAt (c : Dev nD) : (n : ℕ) → n < cfg0.N → Vec F S8x256 .f32 × Vec F S8x256 .f32
  | 0, hn => (k0_pay3 (iblk0 V c 0 ⟨0, hn⟩) (k0_pay1 (F := F)), k0_pay4 (iblk0 V c 0 ⟨0, hn⟩) (k0_pay2 (F := F)))
  | n + 1, hn =>
    if (n + 1) % 16 = 0 then
      (k0_pay3 (iblk0 V c 0 ⟨n + 1, hn⟩) (k0_pay1 (F := F)), k0_pay4 (iblk0 V c 0 ⟨n + 1, hn⟩) (k0_pay2 (F := F)))
    else
      (k0_pay3 (iblk0 V c 0 ⟨n + 1, hn⟩) (accAt c n (Nat.lt_of_succ_lt hn)).1, k0_pay4 (iblk0 V c 0 ⟨n + 1, hn⟩) (accAt c n (Nat.lt_of_succ_lt hn)).2)

theorem accAt_first (c : Dev nD) (t : Fin cfg0.N) (h : t.val % 16 = 0) :
    accAt V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact if_pos h

theorem accAt_next (c : Dev nD) (t : Fin cfg0.N) (h : ¬ t.val % 16 = 0) :
    accAt V c t.val t.isLt
      = (k0_pay3 (iblk0 V c 0 t) (accAt V c (t.val - 1) (Nat.lt_of_le_of_lt (Nat.sub_le _ _) t.isLt)).1,
         k0_pay4 (iblk0 V c 0 t) (accAt V c (t.val - 1) (Nat.lt_of_le_of_lt (Nat.sub_le _ _) t.isLt)).2) := by
  obtain ⟨n, hn⟩ := t
  cases n with
  | zero => exact absurd (Nat.zero_mod _) h
  | succ n => exact if_neg h

/-! ## The region invariant: both accumulators carried from point to point -/

/-- The scoped buffers of the core that are neither this pipeline's staging buffers nor its accumulators (the other
    pipeline's six staging buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant with the accumulators as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scB fullShare d) ∗ rest0 (F := F) c) ∗ (∃ r, prngReg c r)) := by
  unfold Pipeline.ΦA; rw [scopedRest0_eq]; simp only [scA, scB, owns_whole]; unfold rest0; try rfl

/-- Before the first point the class invariant (every scoped buffer at anything); after point n the accumulators at
    what that point left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scA fullShare (accAt V c n hn).1 ∗ owns (c : Thread nD τ) scB fullShare (accAt V c n hn).2 ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scA fullShare (accAt V c n hn).1 ∗ owns (c : Thread nD τ) scB fullShare (accAt V c n hn).2 ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scA fullShare (accAt V c (n - 1) (by omega)).1 ∗ owns (c : Thread nD τ) scB fullShare (accAt V c (n - 1) (by omega)).2 ∗ rest0 (F := F) c) ∗ (∃ r, prngReg c r)) := by
  cases n with
  | zero => exact absurd rfl hz
  | succ n => rfl

/-! ## The proof data -/

/-- The proof data of pipeline 0 on core c: the arrays as the region finds them; after the body at point t the x
    window's buffer at its block, the mean window's at a / 16384 and the std window's at sqrt (max (b / 16384 - mean^2) 0)
    of the accumulators a, b after t (read only where the windows are live: at the last step of a batch block);
    the invariant carries the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay5 (accAt V c t.val t.isLt).1
    | ⟨2, _⟩ => k0_pay6 (accAt V c t.val t.isLt).1 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = k0_pay5 (accAt V c t.val t.isLt).1 := by dsimp only [dat0]
theorem after0_2 (c : Dev nD) (t : Fin cfg0.N) :
    (dat0 V c).after 2 t = k0_pay6 (accAt V c t.val t.isLt).1 (accAt V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point, by the step's case: the invariant hands the body the accumulators (at anything before the
    very first point, else at what the point before left) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  have hN : t.val < 32 := lt_of_lt_of_eq t.isLt (show cfg0.N = 32 from N_0)
  by_cases h0 : t.val % 16 = 0
  · -- a first step: the accumulators are overwritten, whatever they held; both outputs idle
    have hf : isFirst (grid0.coords t) := (first_iff t).mpr h0
    have hl : ¬ isLast (grid0.coords t) := fun h => by have := (last_iff t).mp h; omega
    rw [Dat.leavesExact_idle (dat0 V c) 1 t (idle0_1 t hl) (noFlush0_1 t hl)]
    rw [Dat.leavesExact_idle (dat0 V c) 2 t (idle0_2 t hl) (noFlush0_2 t hl)]
    rw [accAt_first V c t h0]
    dsimp only
    by_cases hz : t.val = 0
    · -- the very first point: the class invariant hands the accumulators at anything
      rw [PhiS_castSucc V c t, PhiS_zero V c _ _ hz, PhiA0_eq]
      iintro ⟨⟨⟨HA, HB, HR⟩, Hg⟩, Ho, ⟨%d0, H0⟩, H1, H2⟩
      iapply (stats_first c Set.univ (grid0.coords t) _ _ _ _ _ _ _ _ _ _ hf hl (iblk0 V c 0 t) _)
      isplitl [H0]; · iexact H0
      isplitl [HA]; · iexact HA
      isplitl [HB]; · iexact HB
      iintro ⟨H0, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2
    · -- the first step of a later batch block: the accumulators come at what the block before left
      rw [PhiS_castSucc V c t, PhiS_pos V c _ _ hz]
      iintro ⟨⟨⟨HA, HB, HR⟩, Hg⟩, Ho, ⟨%d0, H0⟩, H1, H2⟩
      iapply (stats_first c Set.univ (grid0.coords t) _ _ _ _ _ _ _ _ _ _ hf hl (iblk0 V c 0 t) _)
      isplitl [H0]; · iexact H0
      isplitl [HA]; · iexists _; iexact HA
      isplitl [HB]; · iexists _; iexact HB
      iintro ⟨H0, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2
  · have hf : ¬ isFirst (grid0.coords t) := fun h => h0 ((first_iff t).mp h)
    have hz : t.val ≠ 0 := fun h => h0 (by rw [h])
    by_cases h15 : t.val % 16 = 15
    · -- the last step: the update, then both outputs stored from the completed sums
      have hl : isLast (grid0.coords t) := (last_iff t).mpr h15
      rw [show (dat0 V c).leavesExact 1 t = owns (c : Thread nD τ) (ms0_1 t) fullShare ((dat0 V c).after 1 t) from by
        unfold Dat.leavesExact; rw [live0_1 t hl], after0_1]
      rw [show (dat0 V c).leavesExact 2 t = owns (c : Thread nD τ) (ms0_2 t) fullShare ((dat0 V c).after 2 t) from by
        unfold Dat.leavesExact; rw [live0_2 t hl], after0_2]
      rw [accAt_next V c t h0]
      dsimp only
      rw [PhiS_castSucc V c t, PhiS_pos V c _ _ hz]
      iintro ⟨⟨⟨HA, HB, HR⟩, Hg⟩, Ho, ⟨%d0, H0⟩, ⟨%d1, H1⟩, ⟨%d2, H2⟩⟩
      iapply (stats_last c Set.univ (grid0.coords t) _ _ _ _ _ _ _ _ _ _ hf hl (iblk0 V c 0 t) _ _ _)
      isplitl [H0]; · iexact H0
      isplitl [H1]; · iexists _; iexact H1
      isplitl [H2]; · iexists _; iexact H2
      isplitl [HA]; · iexact HA
      isplitl [HB]; · iexact HB
      iintro ⟨H0, H1, H2, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2
    · -- a middle step: the update on top of what the step before left; both outputs idle
      have hl : ¬ isLast (grid0.coords t) := fun h => h15 ((last_iff t).mp h)
      rw [Dat.leavesExact_idle (dat0 V c) 1 t (idle0_1 t hl) (noFlush0_1 t hl)]
      rw [Dat.leavesExact_idle (dat0 V c) 2 t (idle0_2 t hl) (noFlush0_2 t hl)]
      rw [accAt_next V c t h0]
      dsimp only
      rw [PhiS_castSucc V c t, PhiS_pos V c _ _ hz]
      iintro ⟨⟨⟨HA, HB, HR⟩, Hg⟩, Ho, ⟨%d0, H0⟩, H1, H2⟩
      iapply (stats_mid c Set.univ (grid0.coords t) _ _ _ _ _ _ _ _ _ _ hf hl (iblk0 V c 0 t) _ _ _)
      isplitl [H0]; · iexact H0
      isplitl [HA]; · iexact HA
      isplitl [HB]; · iexact HB
      iintro ⟨H0, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HA, HB, HR⟩, Hg⟩
  isplitl [HA HB HR]
  · isplitl [HA]; · iexists _; iexact HA
    isplitl [HB]; · iexists _; iexact HB
    iexact HR
  iexact Hg

end Cert.Kernel.Hand

end
-- ==== Proof.Bits.ScaleData.lean ====
/-
  The gating kernel, region 1 of the program: at a grid point (bo, co, ho) of the 2 x 2 x 16 grid it multiplies the
  block x[8bo.., 128co.., 8ho.., :] of shape 8 x 128 x 8 x 128 by the mask block m[8bo.., 128co..] of shape 8 x 128,
  broadcast along the two spatial axes, and stores the product whole into the output block. The proof data of its
  pipeline are stated at a parameter V, the buffer contents when the region is entered.
-/
import proofs.«109344_j12446815224180_1_alg».proof.Proof.Gen.Kernel.Skeleton
import proofs.«109344_j12446815224180_1_alg».proof.Proof.Gen.Kernel.Launch
import proofs.«109344_j12446815224180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds its block at every point, for any proof data over V that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The mask window's staging buffer holds its block at every point: it is fetched when (bo, co) changes and its
    block index does not move in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S8x128x8x128 := Rect.unit (s := S8x128x8x128) ![0, 0, 0, 0] S8x128x8x128.size inb_S8x128x8x128_S8x128x8x128_0_0_0_0
abbrev rM1 : Rect S8x128 := Rect.unit (s := S8x128) ![0, 0] S8x128.size inb_S8x128_S8x128_0_0

/-- What the body leaves in the output block: the product of the x block and the broadcast mask block, one whole store. -/
def scaleOut (x0 : Vec F S8x128x8x128 .f32) (m0 : Vec F S8x128 .f32) : Vec F S8x128x8x128 .f32 :=
  View.canon [⟨rX1, k1_pay1 (View.ld m0 rM1) (View.ld x0 rX1)⟩]

theorem scaleCover (p0 : Vec F S8x128x8x128 .f32) (y : S8x128x8x128.Idx) :
    ∃ pc ∈ ([⟨rX1, p0⟩] : List (View.Piece (Elt F) S8x128x8x128 .f32)), y ∈ pc.1.set :=
  View.cover_of_tiled [⟨rX1, p0⟩] S8x128x8x128.size (by rfl) y

set_option maxHeartbeats 1000000 in
/-- The body on whole staging memrefs: the inputs stay as they were and the output ends at the product. -/
theorem scale_run (c : Dev nD) (E : Set ℕ) (i : grid1.Coords)
    (xr : Memref sig .tc .vmem S8x128x8x128 .f32) (hx : xr.IsWhole) (mr : Memref sig .tc .vmem S8x128 .f32) (hm : mr.IsWhole)
    (orr : Memref sig .tc .vmem S8x128x8x128 .f32) (ho : orr.IsWhole)
    (x0 : Vec F S8x128x8x128 .f32) (m0 : Vec F S8x128 .f32) (K : PUnit → sProp 𝕄) :
    iprop(owns (c : Thread nD τ) xr fullShare x0 ∗ owns (c : Thread nD τ) mr fullShare m0 ∗ (∃ d, owns (c : Thread nD τ) orr fullShare d)
        ∗ (iprop(owns (c : Thread nD τ) xr fullShare x0 ∗ owns (c : Thread nD τ) mr fullShare m0
            ∗ owns (c : Thread nD τ) orr fullShare (scaleOut x0 m0)) -∗ K ⟨⟩))
      ⊢ wp frame (wpE (defs₀ (F := F)) Variants.none c none) E (cc1__scale_kernel i xr hx mr hm orr ho) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaleCover _)

/-- The proof data of pipeline 1 on core c: the arrays as the region finds them; after the body each input's buffer
    at its block and the output's at the product of the two blocks; nothing carried from point to point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scaleOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scaleOut (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (scale_run c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Launch.lean ====
/-
  The whole program run: region 0 (the statistics), nine stretches of host operations (the mask), region 1 (the gating),
  with the buffer contents named at every boundary. Region 0 leaves its two output arrays at the fold of its write-backs
  and every other unscoped buffer as launched; each host stretch applies its operations; region 1 leaves its output array
  at the fold of its write-backs and everything else as it found it. The run ends with every unscoped buffer at the last
  boundary's contents, from which the frame (the fifteen arguments end as launched) and the result buffer are read.
-/
import proofs.«109344_j12446815224180_1_alg».proof.Proof.Bits.StatsData
import proofs.«109344_j12446815224180_1_alg».proof.Proof.Bits.ScaleData
import proofs.«109344_j12446815224180_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the regions' boundaries -/

/-- Region 0 is entered from the launch memory. -/
abbrev Vin0 : (c : Dev nD) → (b : Ref sig .tc) → Buf (Elt F) ((c : Thread nD τ).loc b) := fun c b => Gen.V0 m c b

/-- After region 0: its arrays at what its write-backs leave, every other buffer as launched. -/
def W1 (c : Dev nD) : Valuation τ sig (Elt F) :=
  Pipeline.withArrays spec0 c (Gen.V0 m c) fun w => (dat0 (Vin0 m) c).arrAt w cfg0.N
theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w

/-- The contents the regions leave, with region 1's not yet named: region 0's at every position. -/
def outsPre : Gen.Outs (F := F) := fun _ r c => W1 m c r

/-- Region 1 is entered after the nine host stretches. -/
abbrev Vin1 : (c : Dev nD) → (b : Ref sig .tc) → Buf (Elt F) ((c : Thread nD τ).loc b) := fun c b => Gen.V10 m (outsPre m) c b

/-- After region 1: its arrays at what its write-backs leave, every other buffer as it found it. -/
def W11 (c : Dev nD) : Valuation τ sig (Elt F) :=
  Pipeline.withArrays spec1 c (Gen.V10 m (outsPre m) c) fun w => (dat1 (Vin1 m) c).arrAt w cfg1.N
theorem W11_arr (c : Dev nD) (w : Fin cfg1.W) :
    W11 m c (Proc.devRef .tc (Pipeline.arrRef spec1 w)) = (dat1 (Vin1 m) c).arrAt w cfg1.N := by
  unfold W11; exact Pipeline.withArrays_arr spec1 launch1.win.arr_inj c _ _ w

/-- The contents the regions leave: region 0's after item 0, region 1's after item 10. -/
def outs : Gen.Outs (F := F) := fun n r c => if n = 11 then W11 m c r else W1 m c r
theorem outs_one (r : Ref sig .tc) (c : Dev nD) : outs m 1 r c = W1 m c r := if_neg (by decide)
theorem outs_eleven (r : Ref sig .tc) (c : Dev nD) : outs m 11 r c = W11 m c r := if_pos rfl

theorem V1_outs (c : Dev nD) : Gen.V1 m (outs m) c = Gen.V1 m (outsPre m) c := by
  show Function.update (Function.update (Gen.V0 m c) main_v0_0 (outs m 1 main_v0_0 c)) main_v0_1 (outs m 1 main_v0_1 c)
    = Function.update (Function.update (Gen.V0 m c) main_v0_0 (outsPre m 1 main_v0_0 c)) main_v0_1 (outsPre m 1 main_v0_1 c)
  rw [outs_one, outs_one]; rfl
theorem V10_outs (c : Dev nD) : Gen.V10 m (outs m) c = Gen.V10 m (outsPre m) c :=
  congrArg (fun v => StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 v))))))))) (V1_outs m c)

/-- What region 0 left in its two outputs, and what region 1 left in its output, as the fold names them. -/
theorem V1_mean (o : Gen.Outs (F := F)) (ho : ∀ r c, o 1 r c = W1 m c r) (c : Dev nD) :
    Gen.V1 m o c main_v0_0 = (dat0 (Vin0 m) c).arrAt 1 cfg0.N := by
  show Function.update (Function.update (Gen.V0 m c) main_v0_0 (o 1 main_v0_0 c)) main_v0_1 (o 1 main_v0_1 c) main_v0_0 = _
  rw [Function.update_of_ne (StableHlo.devRef_ne_of_ne (by decide)), Function.update_self, ho]
  exact W1_arr m c 1
theorem V1_std (o : Gen.Outs (F := F)) (ho : ∀ r c, o 1 r c = W1 m c r) (c : Dev nD) :
    Gen.V1 m o c main_v0_1 = (dat0 (Vin0 m) c).arrAt 2 cfg0.N := by
  show Function.update (Function.update (Gen.V0 m c) main_v0_0 (o 1 main_v0_0 c)) main_v0_1 (o 1 main_v0_1 c) main_v0_1 = _
  rw [Function.update_self, ho]
  exact W1_arr m c 2
theorem V11_result (c : Dev nD) : Gen.V11 m (outs m) c main_v40 = (dat1 (Vin1 m) c).arrAt 2 cfg1.N := by
  show Function.update (Gen.V10 m (outs m) c) main_v40 (outs m 11 main_v40 c) main_v40 = _
  rw [Function.update_self, outs_eleven]
  exact W11_arr m c 2

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev noVar : Variants := Variants.none
abbrev noL : GSem nD τ sig → Finset Unit := fun _ => ∅
abbrev noLv : GSem nD τ sig → Unit → ℕ := fun _ _ => 0
/-- Beside the buffers through every item: the core's generator register at some state, and nothing owed. -/
abbrev Rr (c : Dev nD) : sProp 𝕄 := iprop((∃ r, prngReg c r) ∗ ∃ W, owes (c : Thread nD τ) (0 : CellTallies nD τ sig Unit) W)
abbrev Tn (c : Dev nD) : sProp 𝕄 := iprop(StableHlo.held (c : Thread nD τ) (Pipeline.ucRefs τ sig) (Gen.V11 m (outs m) c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hA0 (c : Dev nD) (w : Fin cfg0.W) : (pdats m 0 c).A w = Gen.V0 m c (Pipeline.arrRef spec0 w) := A_eq0 (Vin0 m) c w
theorem hA1 (c : Dev nD) (w : Fin cfg1.W) : (pdats m 1 c).A w = Gen.V10 m (outs m) c (Pipeline.arrRef spec1 w) :=
  (A_eq1 (Vin1 m) c w).trans (congrFun (V10_outs m c).symm _)

/-- At region 0's exit each of its arrays holds what the pipeline leaves and every other buffer what it held. -/
theorem hF0 (c : Dev nD) : ∀ w : Fin cfg0.W, (pdats m 0 c).arrAt w cfg0.N = Gen.V1 m (outs m) c (Pipeline.arrRef spec0 w)
  | ⟨0, _⟩ => ((dat0 (Vin0 m) c).arrAt_in 0 rfl _).trans ((A_eq0 (Vin0 m) c 0).trans (Gen.V1_of m (outs m) c main_arg0 (by decide)).symm)
  | ⟨1, _⟩ => (V1_mean m (outs m) (outs_one m) c).symm
  | ⟨2, _⟩ => (V1_std m (outs m) (outs_one m) c).symm
theorem hrest0 (c : Dev nD) : ∀ b, b ∉ Finset.univ.image (Pipeline.arrRef spec0) → Gen.V1 m (outs m) c b = Gen.V0 m c b :=
  fun b hb => Gen.V1_of m (outs m) c b (by
    intro hmem
    simp only [List.mem_cons, List.mem_nil_iff, or_false] at hmem
    rcases hmem with rfl | rfl
    · exact hb (Finset.mem_image.mpr ⟨1, Finset.mem_univ _, rfl⟩)
    · exact hb (Finset.mem_image.mpr ⟨2, Finset.mem_univ _, rfl⟩))

/-- The same at region 1's exit. -/
theorem hF1 (c : Dev nD) : ∀ w : Fin cfg1.W, (pdats m 1 c).arrAt w cfg1.N = Gen.V11 m (outs m) c (Pipeline.arrRef spec1 w)
  | ⟨0, _⟩ => ((dat1 (Vin1 m) c).arrAt_in 0 rfl _).trans ((hA1 m c 0).trans (Gen.V11_of m (outs m) c main_arg0 (by decide)).symm)
  | ⟨1, _⟩ => ((dat1 (Vin1 m) c).arrAt_in 1 rfl _).trans ((hA1 m c 1).trans (Gen.V11_of m (outs m) c main_v39 (by decide)).symm)
  | ⟨2, _⟩ => (V11_result m c).symm
theorem hrest1 (c : Dev nD) : ∀ b, b ∉ Finset.univ.image (Pipeline.arrRef spec1) → Gen.V11 m (outs m) c b = Gen.V10 m (outs m) c b :=
  fun b hb => Gen.V11_of m (outs m) c b (by
    intro hmem
    simp only [List.mem_cons, List.mem_nil_iff, or_false] at hmem
    subst hmem
    exact hb (Finset.mem_image.mpr ⟨2, Finset.mem_univ _, rfl⟩))

/-! ## The regions as segments -/

set_option backward.isDefEq.respectTransparency.types false in
/-- Region 0 over the thread state: entered with every unscoped buffer as launched, left with its two outputs at what
    its write-backs leave. The accumulators' contents are carried by the invariant and forgotten at the exit. -/
def reg0 : Pipeline.RegionSeg (pcfgs (F := F)) Gen.adm (pdats m) () defs₀ noVar noL noLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noL noLv 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => Gen.V0 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V0 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V0 m c b) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered after the host stretches, left with its output at what its write-backs leave. -/
def reg1 : Pipeline.RegionSeg (pcfgs (F := F)) Gen.adm (pdats m) () defs₀ noVar noL noLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noL noLv 1 fun _ _ => rfl
  pre c := iprop(StableHlo.held (c : Thread nD τ) (Pipeline.ucRefs τ sig) (Gen.V10 m (outs m) c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => Gen.V10 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V10 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V10 m (outs m) c b) (fun b => Gen.V11 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V11 m (outs m) c b) :=
  Pipeline.θ_run_regions_kit_dev (pcfgs (F := F)) Gen.adm (pdats m) () cellOf_inj emb₁ defs₀ noVar noL noLv m ρ main
    (Gen.segs m (outs m) noVar noL noLv (fun _ c => Rr c) () (pdats m) (reg0 m) (reg1 m))
    (fun c Q => by
      rewrite [main_chain c, Seg.run_eq_chain,
        show (Gen.segs m (outs m) noVar noL noLv (fun _ c => Rr c) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tn m)
    (hch := fun c => ⟨.rfl, .rfl, .rfl, .rfl, .rfl, .rfl, .rfl, .rfl, .rfl, .rfl, .rfl, .rfl⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h => h)

/-- THE FRAME: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
      (h c _ (mem_uc main_arg0 (by decide))).trans (Gen.V11_main_arg0 m (outs m) c),
      (h c _ (mem_uc main_arg1 (by decide))).trans (Gen.V11_main_arg1 m (outs m) c),
      (h c _ (mem_uc main_arg2 (by decide))).trans (Gen.V11_main_arg2 m (outs m) c),
      (h c _ (mem_uc main_arg3 (by decide))).trans (Gen.V11_main_arg3 m (outs m) c),
      (h c _ (mem_uc main_arg4 (by decide))).trans (Gen.V11_main_arg4 m (outs m) c),
      (h c _ (mem_uc main_arg5 (by decide))).trans (Gen.V11_main_arg5 m (outs m) c),
      (h c _ (mem_uc main_arg6 (by decide))).trans (Gen.V11_main_arg6 m (outs m) c),
      (h c _ (mem_uc main_arg7 (by decide))).trans (Gen.V11_main_arg7 m (outs m) c),
      (h c _ (mem_uc main_arg8 (by decide))).trans (Gen.V11_main_arg8 m (outs m) c),
      (h c _ (mem_uc main_arg9 (by decide))).trans (Gen.V11_main_arg9 m (outs m) c),
      (h c _ (mem_uc main_arg10 (by decide))).trans (Gen.V11_main_arg10 m (outs m) c),
      (h c _ (mem_uc main_arg11 (by decide))).trans (Gen.V11_main_arg11 m (outs m) c),
      (h c _ (mem_uc main_arg12 (by decide))).trans (Gen.V11_main_arg12 m (outs m) c),
      (h c _ (mem_uc main_arg13 (by decide))).trans (Gen.V11_main_arg13 m (outs m) c),
      (h c _ (mem_uc main_arg14 (by decide))).trans (Gen.V11_main_arg14 m (outs m) c)⟩) (run_all m ρ)

/-- THE RESULT: the result buffer ends at what region 1's write-backs leave, beside the frame. -/
theorem result_run : θ_run defs (onTc (τ := τ) (main (F := F))) ⟨m, fun _ => 0, ρ⟩ (fun r => ∀ c : Dev nD,
      r.2.mem ((c.tc : Thread nD τ).loc main_v40) = (dat1 (Vin1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v40 (by decide))).trans (V11_result m c),
      (h c _ (mem_uc main_arg0 (by decide))).trans (Gen.V11_main_arg0 m (outs m) c),
      (h c _ (mem_uc main_arg1 (by decide))).trans (Gen.V11_main_arg1 m (outs m) c),
      (h c _ (mem_uc main_arg2 (by decide))).trans (Gen.V11_main_arg2 m (outs m) c),
      (h c _ (mem_uc main_arg3 (by decide))).trans (Gen.V11_main_arg3 m (outs m) c),
      (h c _ (mem_uc main_arg4 (by decide))).trans (Gen.V11_main_arg4 m (outs m) c),
      (h c _ (mem_uc main_arg5 (by decide))).trans (Gen.V11_main_arg5 m (outs m) c),
      (h c _ (mem_uc main_arg6 (by decide))).trans (Gen.V11_main_arg6 m (outs m) c),
      (h c _ (mem_uc main_arg7 (by decide))).trans (Gen.V11_main_arg7 m (outs m) c),
      (h c _ (mem_uc main_arg8 (by decide))).trans (Gen.V11_main_arg8 m (outs m) c),
      (h c _ (mem_uc main_arg9 (by decide))).trans (Gen.V11_main_arg9 m (outs m) c),
      (h c _ (mem_uc main_arg10 (by decide))).trans (Gen.V11_main_arg10 m (outs m) c),
      (h c _ (mem_uc main_arg11 (by decide))).trans (Gen.V11_main_arg11 m (outs m) c),
      (h c _ (mem_uc main_arg12 (by decide))).trans (Gen.V11_main_arg12 m (outs m) c),
      (h c _ (mem_uc main_arg13 (by decide))).trans (Gen.V11_main_arg13 m (outs m) c),
      (h c _ (mem_uc main_arg14 (by decide))).trans (Gen.V11_main_arg14 m (outs m) c)⟩) (run_all m ρ)

end Cert.Kernel.Hand

end
-- ==== Proof.Ideal.StatsBody.lean ====
/-
  The statistics kernel's body, run once per control case. A grid point (bo, ho) of the 2 x 16 grid sees one
  block x of shape 8 x 256 x 8 x 128 and two accumulators a, b of shape 8 x 256 that live across the 16 steps of ho:
    first step (ho = 0):   a := 0 + sum_{h,w} x,   b := 0 + sum_{h,w} x*x
    middle steps:          a := a + sum_{h,w} x,   b := b + sum_{h,w} x*x
    last step (ho = 15):   the same update, then mean := a / 16384 and std := sqrt (max (b / 16384 - mean*mean) 0)
  are stored into the two output blocks. Every store covers its whole buffer, so each buffer ends at one payload.
-/
import proofs.«109344_j12446815224180_1_alg».proof.Proof.Gen.KernelIdeal.Skeleton
import proofs.«109344_j12446815224180_1_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition, from the grid coordinates: the step index ho is 0. -/
abbrev isFirst (i : grid0.Coords) : Prop :=
  (Scalar.cmpi .ne (Scalar.extui (Scalar.cmpi .eq (BitVec.ofNat 32 (i 1).val) 0#32)) 0#32) = 1#1
/-- The body's second branch condition: the step index ho is 15, the last. -/
abbrev isLast (i : grid0.Coords) : Prop := k0_cond2 i = 1#1

/-- The accumulators after a step that starts from a and b. -/
abbrev accStep (x0 : Vec F S8x256x8x128 .f32) (a b : Vec F S8x256 .f32) : Vec F S8x256 .f32 × Vec F S8x256 .f32 :=
  (k0_pay3 x0 a, k0_pay4 x0 b)

/-- The zero offsets of a two-axis and of a four-axis whole rectangle. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- One whole-rectangle piece covers the accumulator's shape, whatever lies under it. -/
theorem cover_whole (p : Vec F S8x256 .f32) (L : List (View.Piece (Elt F) S8x256 .f32)) (y : S8x256.Idx) :
    ∃ pc ∈ ((⟨Rect.unit (s := S8x256) ![0, 0] S8x256.size inb_S8x256_S8x256_0_0, p⟩ : View.Piece (Elt F) S8x256 .f32) :: L), y ∈ pc.1.set :=
  ⟨_, List.mem_cons_self, View.mem_set_unit_zero (S := S8x256) hz2 inb_S8x256_S8x256_0_0 y⟩

/-- First step: both accumulators are reset to zero and then take the block's sums; the outputs are not touched. -/
theorem stats_first (c : Dev nD) (E : Set ℕ) (i : grid0.Coords)
    (xr : Memref sig .tc .vmem S8x256x8x128 .f32) (hx : xr.IsWhole) (mr : Memref sig .tc .vmem S8x256 .f32) (hm : mr.IsWhole)
    (sr : Memref sig .tc .vmem S8x256 .f32) (hs : sr.IsWhole) (ar : Memref sig .tc .vmem S8x256 .f32) (ha : ar.IsWhole)
    (br : Memref sig .tc .vmem S8x256 .f32) (hb : br.IsWhole) (hf : isFirst i) (hl : ¬ isLast i)
    (x0 : Vec F S8x256x8x128 .f32) (K : PUnit → sProp 𝕄) :
    iprop(owns (c : Thread nD τ) xr fullShare x0 ∗ (∃ d, owns (c : Thread nD τ) ar fullShare d) ∗ (∃ d, owns (c : Thread nD τ) br fullShare d)
        ∗ (iprop(owns (c : Thread nD τ) xr fullShare x0 ∗ owns (c : Thread nD τ) ar fullShare (k0_pay3 x0 (k0_pay1 (F := F)))
            ∗ owns (c : Thread nD τ) br fullShare (k0_pay4 x0 (k0_pay2 (F := F)))) -∗ K ⟨⟩))
      ⊢ wp frame (wpE (defs₀ (F := F)) Variants.none c none) E (cc0__stats_kernel i xr hx mr hm sr hs ar ha br hb) K := by
  simp only [cc0__stats_kernel_eq_skeleton]; unfold cc0__stats_kernel_skel
  unfold owns
  iintro ⟨⟨%f0, %hf0, H0⟩, ⟨%da, %fa, -, HA⟩, ⟨%db, %fb, -, HB⟩, Hk⟩
  obtain rfl := hx.eq_unread hf0
  sl_exec (disch := first | exact hf | exact hl)
  sl_step
  iapply Hk
  isplitl [H0]
  · iexists _; isplitr; · ipureintro; exact hx.read_unread _
    iexact H0
  isplitl [HA]
  · iexists _; isplitr
    swap; · iexact HA
    ipureintro
    rw [View.read_writes_eq_canon _ _ _ (cover_whole _ _)]
    sl_unfold_words
    rw [View.canon_cons_unit_zero (S := S8x256) hz2, View.readCov_unit_zero (S := S8x256) _ hz2]
    simp only [View.readAt_eq_ld, hx.read_unread, View.ld_unit_zero (S := S8x256x8x128) hz4]
  · iexists _; isplitr
    swap; · iexact HB
    ipureintro
    rw [View.read_writes_eq_canon _ _ _ (cover_whole _ _)]
    sl_unfold_words
    rw [View.canon_cons_unit_zero (S := S8x256) hz2, View.readCov_unit_zero (S := S8x256) _ hz2]
    simp only [View.readAt_eq_ld, hx.read_unread, View.ld_unit_zero (S := S8x256x8x128) hz4]

/-- A middle step: the accumulators take the block's sums on top of what they held. -/
theorem stats_mid (c : Dev nD) (E : Set ℕ) (i : grid0.Coords)
    (xr : Memref sig .tc .vmem S8x256x8x128 .f32) (hx : xr.IsWhole) (mr : Memref sig .tc .vmem S8x256 .f32) (hm : mr.IsWhole)
    (sr : Memref sig .tc .vmem S8x256 .f32) (hs : sr.IsWhole) (ar : Memref sig .tc .vmem S8x256 .f32) (ha : ar.IsWhole)
    (br : Memref sig .tc .vmem S8x256 .f32) (hb : br.IsWhole) (hf : ¬ isFirst i) (hl : ¬ isLast i)
    (x0 : Vec F S8x256x8x128 .f32) (a b : Vec F S8x256 .f32) (K : PUnit → sProp 𝕄) :
    iprop(owns (c : Thread nD τ) xr fullShare x0 ∗ owns (c : Thread nD τ) ar fullShare a ∗ owns (c : Thread nD τ) br fullShare b
        ∗ (iprop(owns (c : Thread nD τ) xr fullShare x0 ∗ owns (c : Thread nD τ) ar fullShare (k0_pay3 x0 a)
            ∗ owns (c : Thread nD τ) br fullShare (k0_pay4 x0 b)) -∗ K ⟨⟩))
      ⊢ wp frame (wpE (defs₀ (F := F)) Variants.none c none) E (cc0__stats_kernel i xr hx mr hm sr hs ar ha br hb) K := by
  simp only [cc0__stats_kernel_eq_skeleton]; unfold cc0__stats_kernel_skel
  unfold owns
  iintro ⟨⟨%f0, %hf0, H0⟩, ⟨%fa, %hfa, HA⟩, ⟨%fb, %hfb, HB⟩, Hk⟩
  obtain rfl := hx.eq_unread hf0; obtain rfl := ha.eq_unread hfa; obtain rfl := hb.eq_unread hfb
  sl_exec (disch := first | exact hf | exact hl)
  sl_step
  iapply Hk
  isplitl [H0]
  · iexists _; isplitr; · ipureintro; exact hx.read_unread _
    iexact H0
  isplitl [HA]
  · iexists _; isplitr
    swap; · iexact HA
    ipureintro
    rw [View.read_writes_eq_canon _ _ _ (cover_whole _ _), View.canon_unit_zero hz2]
    simp only [View.readAt_eq_ld, hx.read_unread, ha.read_unread, View.ld_unit_zero (S := S8x256) hz2,
      View.ld_unit_zero (S := S8x256x8x128) hz4]
  · iexists _; isplitr
    swap; · iexact HB
    ipureintro
    rw [View.read_writes_eq_canon _ _ _ (cover_whole _ _), View.canon_unit_zero hz2]
    simp only [View.readAt_eq_ld, hx.read_unread, hb.read_unread, View.ld_unit_zero (S := S8x256) hz2,
      View.ld_unit_zero (S := S8x256x8x128) hz4]

/-- The last step: the same update, then the mean and the standard deviation are stored into the two outputs. -/
theorem stats_last (c : Dev nD) (E : Set ℕ) (i : grid0.Coords)
    (xr : Memref sig .tc .vmem S8x256x8x128 .f32) (hx : xr.IsWhole) (mr : Memref sig .tc .vmem S8x256 .f32) (hm : mr.IsWhole)
    (sr : Memref sig .tc .vmem S8x256 .f32) (hs : sr.IsWhole) (ar : Memref sig .tc .vmem S8x256 .f32) (ha : ar.IsWhole)
    (br : Memref sig .tc .vmem S8x256 .f32) (hb : br.IsWhole) (hf : ¬ isFirst i) (hl : isLast i)
    (x0 : Vec F S8x256x8x128 .f32) (a b : Vec F S8x256 .f32) (K : PUnit → sProp 𝕄) :
    iprop(owns (c : Thread nD τ) xr fullShare x0 ∗ (∃ d, owns (c : Thread nD τ) mr fullShare d) ∗ (∃ d, owns (c : Thread nD τ) sr fullShare d)
        ∗ owns (c : Thread nD τ) ar fullShare a ∗ owns (c : Thread nD τ) br fullShare b
        ∗ (iprop(owns (c : Thread nD τ) xr fullShare x0
            ∗ owns (c : Thread nD τ) mr fullShare (k0_pay5 (k0_pay3 x0 a))
            ∗ owns (c : Thread nD τ) sr fullShare (k0_pay6 (k0_pay3 x0 a) (k0_pay4 x0 b))
            ∗ owns (c : Thread nD τ) ar fullShare (k0_pay3 x0 a)
            ∗ owns (c : Thread nD τ) br fullShare (k0_pay4 x0 b)) -∗ K ⟨⟩))
      ⊢ wp frame (wpE (defs₀ (F := F)) Variants.none c none) E (cc0__stats_kernel i xr hx mr hm sr hs ar ha br hb) K := by
  simp only [cc0__stats_kernel_eq_skeleton]; unfold cc0__stats_kernel_skel
  unfold owns
  iintro ⟨⟨%f0, %hf0, H0⟩, ⟨%dm, %fm, -, HM⟩, ⟨%ds, %fs, -, HS⟩, ⟨%fa, %hfa, HA⟩, ⟨%fb, %hfb, HB⟩, Hk⟩
  obtain rfl := hx.eq_unread hf0; obtain rfl := ha.eq_unread hfa; obtain rfl := hb.eq_unread hfb
  sl_exec (disch := first | exact hf | exact hl)
  sl_step
  iapply Hk
  isplitl [H0]
  · iexists _; isplitr; · ipureintro; exact hx.read_unread _
    iexact H0
  isplitl [HM]
  · iexists _; isplitr
    swap; · iexact HM
    ipureintro
    rw [View.read_writes_eq_canon _ _ _ (cover_whole _ _), View.canon_unit_zero hz2]
    sl_unfold_words
    simp only [View.readCov_unit_zero (S := S8x256) _ hz2, View.readAt_eq_ld, hx.read_unread, ha.read_unread,
      View.ld_unit_zero (S := S8x256) hz2, View.ld_unit_zero (S := S8x256x8x128) hz4]
  isplitl [HS]
  · iexists _; isplitr
    swap; · iexact HS
    ipureintro
    rw [View.read_writes_eq_canon _ _ _ (cover_whole _ _), View.canon_unit_zero hz2]
    sl_unfold_words
    simp only [View.readCov_unit_zero (S := S8x256) _ hz2, View.readAt_eq_ld, hx.read_unread, ha.read_unread,
      hb.read_unread, View.ld_unit_zero (S := S8x256) hz2, View.ld_unit_zero (S := S8x256x8x128) hz4]
  isplitl [HA]
  · iexists _; isplitr
    swap; · iexact HA
    ipureintro
    sl_unfold_words
    rw [View.read_writes_eq_canon _ _ _ (cover_whole _ _), View.canon_unit_zero hz2]
    simp only [View.readAt_eq_ld, hx.read_unread, ha.read_unread, View.ld_unit_zero (S := S8x256) hz2,
      View.ld_unit_zero (S := S8x256x8x128) hz4]
  · iexists _; isplitr
    swap; · iexact HB
    ipureintro
    sl_unfold_words
    rw [View.read_writes_eq_canon _ _ _ (cover_whole _ _), View.canon_unit_zero hz2]
    simp only [View.readAt_eq_ld, hx.read_unread, hb.read_unread, View.ld_unit_zero (S := S8x256) hz2,
      View.ld_unit_zero (S := S8x256x8x128) hz4]

end Cert.KernelIdeal.Hand

end
-- ==== Proof.Ideal.StatsData.lean ====
/-
  The statistics kernel's pipeline, region 0 of the program, at a parameter V (the buffer contents when the region
  is entered). The grid is 2 x 16: point t = 16 bo + ho sees the block x[8bo.., :, 8ho.., :]. Two scratch accumulators
  live across the 16 steps of a batch block: after point t they hold the sums of x and of x*x over the steps so far of
  t's batch block (reset at ho = 0). The two output windows (mean, std) are idle except at ho = 15, where the body
  stores mean = a / 16384 and std = sqrt (max (b / 16384 - mean^2) 0) of the completed sums and the pipeline writes
  the blocks back.
-/
import proofs.«109344_j12446815224180_1_alg».proof.Proof.Ideal.StatsBody
import proofs.«109344_j12446815224180_1_alg».proof.Proof.Gen.KernelIdeal.Points
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point, for any proof data over V that leave it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions in closed form, and where the output windows are idle -/

theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)

theorem live0_0 : ∀ t : Fin cfg0.N, cfg0.idle 0 (grid0.coords t) = false := by decide +kernel
theorem idle0_1 : ∀ t : Fin cfg0.N, ¬ isLast (grid0.coords t) → cfg0.idle 1 (grid0.coords t) = true := by decide +kernel
theorem noFlush0_1 : ∀ t : Fin cfg0.N, ¬ isLast (grid0.coords t) → (cfg0.win 1).flush t = false := by decide +kernel
theorem live0_1 : ∀ t : Fin cfg0.N, isLast (grid0.coords t) → cfg0.idle 1 (grid0.coords t) = false := by decide +kernel
theorem idle0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
theorem live0_2 : ∀ t : Fin cfg0.N, isLast (grid0.coords t) → cfg0.idle 2 (grid0.coords t) = false := by decide +kernel

/-! ## The staging memrefs and the two scratch accumulators -/

abbrev ms0_0 (t : Fin cfg0.N) : Memref sig .tc .vmem S8x256x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
/-- The accumulator of the sums of x, and the accumulator of the sums of x*x. -/
abbrev scA : Memref sig .tc .vmem S8x256 .f32 := Memref.whole cc0_scratch0
abbrev scB : Memref sig .tc .vmem S8x256 .f32 := Memref.whole cc0_scratch1

/-- THE ACCUMULATION: what the two accumulators hold after the body at position n. At the first step of a batch
    block (n a multiple of 16) the block's sums over zero; otherwise the block's sums over what the step before left. -/
def accAt (c : Dev nD) : (n : ℕ) → n < cfg0.N → Vec F S8x256 .f32 × Vec F S8x256 .f32
  | 0, hn => (k0_pay3 (iblk0 V c 0 ⟨0, hn⟩) (k0_pay1 (F := F)), k0_pay4 (iblk0 V c 0 ⟨0, hn⟩) (k0_pay2 (F := F)))
  | n + 1, hn =>
    if (n + 1) % 16 = 0 then
      (k0_pay3 (iblk0 V c 0 ⟨n + 1, hn⟩) (k0_pay1 (F := F)), k0_pay4 (iblk0 V c 0 ⟨n + 1, hn⟩) (k0_pay2 (F := F)))
    else
      (k0_pay3 (iblk0 V c 0 ⟨n + 1, hn⟩) (accAt c n (Nat.lt_of_succ_lt hn)).1, k0_pay4 (iblk0 V c 0 ⟨n + 1, hn⟩) (accAt c n (Nat.lt_of_succ_lt hn)).2)

theorem accAt_first (c : Dev nD) (t : Fin cfg0.N) (h : t.val % 16 = 0) :
    accAt V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact if_pos h

theorem accAt_next (c : Dev nD) (t : Fin cfg0.N) (h : ¬ t.val % 16 = 0) :
    accAt V c t.val t.isLt
      = (k0_pay3 (iblk0 V c 0 t) (accAt V c (t.val - 1) (Nat.lt_of_le_of_lt (Nat.sub_le _ _) t.isLt)).1,
         k0_pay4 (iblk0 V c 0 t) (accAt V c (t.val - 1) (Nat.lt_of_le_of_lt (Nat.sub_le _ _) t.isLt)).2) := by
  obtain ⟨n, hn⟩ := t
  cases n with
  | zero => exact absurd (Nat.zero_mod _) h
  | succ n => exact if_neg h

/-! ## The region invariant: both accumulators carried from point to point -/

/-- The scoped buffers of the core that are neither this pipeline's staging buffers nor its accumulators (the other
    pipeline's six staging buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant with the accumulators as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scB fullShare d) ∗ rest0 (F := F) c) ∗ (∃ r, prngReg c r)) := by
  unfold Pipeline.ΦA; rw [scopedRest0_eq]; simp only [scA, scB, owns_whole]; unfold rest0; try rfl

/-- Before the first point the class invariant (every scoped buffer at anything); after point n the accumulators at
    what that point left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scA fullShare (accAt V c n hn).1 ∗ owns (c : Thread nD τ) scB fullShare (accAt V c n hn).2 ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scA fullShare (accAt V c n hn).1 ∗ owns (c : Thread nD τ) scB fullShare (accAt V c n hn).2 ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scA fullShare (accAt V c (n - 1) (by omega)).1 ∗ owns (c : Thread nD τ) scB fullShare (accAt V c (n - 1) (by omega)).2 ∗ rest0 (F := F) c) ∗ (∃ r, prngReg c r)) := by
  cases n with
  | zero => exact absurd rfl hz
  | succ n => rfl

/-! ## The proof data -/

/-- The proof data of pipeline 0 on core c: the arrays as the region finds them; after the body at point t the x
    window's buffer at its block, the mean window's at a / 16384 and the std window's at sqrt (max (b / 16384 - mean^2) 0)
    of the accumulators a, b after t (read only where the windows are live: at the last step of a batch block);
    the invariant carries the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay5 (accAt V c t.val t.isLt).1
    | ⟨2, _⟩ => k0_pay6 (accAt V c t.val t.isLt).1 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = k0_pay5 (accAt V c t.val t.isLt).1 := by dsimp only [dat0]
theorem after0_2 (c : Dev nD) (t : Fin cfg0.N) :
    (dat0 V c).after 2 t = k0_pay6 (accAt V c t.val t.isLt).1 (accAt V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point, by the step's case: the invariant hands the body the accumulators (at anything before the
    very first point, else at what the point before left) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  have hN : t.val < 32 := lt_of_lt_of_eq t.isLt (show cfg0.N = 32 from N_0)
  by_cases h0 : t.val % 16 = 0
  · -- a first step: the accumulators are overwritten, whatever they held; both outputs idle
    have hf : isFirst (grid0.coords t) := (first_iff t).mpr h0
    have hl : ¬ isLast (grid0.coords t) := fun h => by have := (last_iff t).mp h; omega
    rw [Dat.leavesExact_idle (dat0 V c) 1 t (idle0_1 t hl) (noFlush0_1 t hl)]
    rw [Dat.leavesExact_idle (dat0 V c) 2 t (idle0_2 t hl) (noFlush0_2 t hl)]
    rw [accAt_first V c t h0]
    dsimp only
    by_cases hz : t.val = 0
    · -- the very first point: the class invariant hands the accumulators at anything
      rw [PhiS_castSucc V c t, PhiS_zero V c _ _ hz, PhiA0_eq]
      iintro ⟨⟨⟨HA, HB, HR⟩, Hg⟩, Ho, ⟨%d0, H0⟩, H1, H2⟩
      iapply (stats_first c Set.univ (grid0.coords t) _ _ _ _ _ _ _ _ _ _ hf hl (iblk0 V c 0 t) _)
      isplitl [H0]; · iexact H0
      isplitl [HA]; · iexact HA
      isplitl [HB]; · iexact HB
      iintro ⟨H0, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2
    · -- the first step of a later batch block: the accumulators come at what the block before left
      rw [PhiS_castSucc V c t, PhiS_pos V c _ _ hz]
      iintro ⟨⟨⟨HA, HB, HR⟩, Hg⟩, Ho, ⟨%d0, H0⟩, H1, H2⟩
      iapply (stats_first c Set.univ (grid0.coords t) _ _ _ _ _ _ _ _ _ _ hf hl (iblk0 V c 0 t) _)
      isplitl [H0]; · iexact H0
      isplitl [HA]; · iexists _; iexact HA
      isplitl [HB]; · iexists _; iexact HB
      iintro ⟨H0, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2
  · have hf : ¬ isFirst (grid0.coords t) := fun h => h0 ((first_iff t).mp h)
    have hz : t.val ≠ 0 := fun h => h0 (by rw [h])
    by_cases h15 : t.val % 16 = 15
    · -- the last step: the update, then both outputs stored from the completed sums
      have hl : isLast (grid0.coords t) := (last_iff t).mpr h15
      rw [show (dat0 V c).leavesExact 1 t = owns (c : Thread nD τ) (ms0_1 t) fullShare ((dat0 V c).after 1 t) from by
        unfold Dat.leavesExact; rw [live0_1 t hl], after0_1]
      rw [show (dat0 V c).leavesExact 2 t = owns (c : Thread nD τ) (ms0_2 t) fullShare ((dat0 V c).after 2 t) from by
        unfold Dat.leavesExact; rw [live0_2 t hl], after0_2]
      rw [accAt_next V c t h0]
      dsimp only
      rw [PhiS_castSucc V c t, PhiS_pos V c _ _ hz]
      iintro ⟨⟨⟨HA, HB, HR⟩, Hg⟩, Ho, ⟨%d0, H0⟩, ⟨%d1, H1⟩, ⟨%d2, H2⟩⟩
      iapply (stats_last c Set.univ (grid0.coords t) _ _ _ _ _ _ _ _ _ _ hf hl (iblk0 V c 0 t) _ _ _)
      isplitl [H0]; · iexact H0
      isplitl [H1]; · iexists _; iexact H1
      isplitl [H2]; · iexists _; iexact H2
      isplitl [HA]; · iexact HA
      isplitl [HB]; · iexact HB
      iintro ⟨H0, H1, H2, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2
    · -- a middle step: the update on top of what the step before left; both outputs idle
      have hl : ¬ isLast (grid0.coords t) := fun h => h15 ((last_iff t).mp h)
      rw [Dat.leavesExact_idle (dat0 V c) 1 t (idle0_1 t hl) (noFlush0_1 t hl)]
      rw [Dat.leavesExact_idle (dat0 V c) 2 t (idle0_2 t hl) (noFlush0_2 t hl)]
      rw [accAt_next V c t h0]
      dsimp only
      rw [PhiS_castSucc V c t, PhiS_pos V c _ _ hz]
      iintro ⟨⟨⟨HA, HB, HR⟩, Hg⟩, Ho, ⟨%d0, H0⟩, H1, H2⟩
      iapply (stats_mid c Set.univ (grid0.coords t) _ _ _ _ _ _ _ _ _ _ hf hl (iblk0 V c 0 t) _ _ _)
      isplitl [H0]; · iexact H0
      isplitl [HA]; · iexact HA
      isplitl [HB]; · iexact HB
      iintro ⟨H0, HA, HB⟩
      isplitl [HA HB HR Hg]
      · isplitl [HA HB HR]
        · isplitl [HA]; · iexact HA
          isplitl [HB]; · iexact HB
          iexact HR
        iexact Hg
      isplitl [Ho]; · iexact Ho
      isplitl [H0]; · iexact H0
      isplitl [H1]; · iexact H1
      iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HA, HB, HR⟩, Hg⟩
  isplitl [HA HB HR]
  · isplitl [HA]; · iexists _; iexact HA
    isplitl [HB]; · iexists _; iexact HB
    iexact HR
  iexact Hg

end Cert.KernelIdeal.Hand

end
-- ==== Proof.Ideal.ScaleData.lean ====
/-
  The gating kernel, region 1 of the program: at a grid point (bo, co, ho) of the 2 x 2 x 16 grid it multiplies the
  block x[8bo.., 128co.., 8ho.., :] of shape 8 x 128 x 8 x 128 by the mask block m[8bo.., 128co..] of shape 8 x 128,
  broadcast along the two spatial axes, and stores the product whole into the output block. The proof data of its
  pipeline are stated at a parameter V, the buffer contents when the region is entered.
-/
import proofs.«109344_j12446815224180_1_alg».proof.Proof.Gen.KernelIdeal.Skeleton
import proofs.«109344_j12446815224180_1_alg».proof.Proof.Gen.KernelIdeal.Launch
import proofs.«109344_j12446815224180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds its block at every point, for any proof data over V that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The mask window's staging buffer holds its block at every point: it is fetched when (bo, co) changes and its
    block index does not move in between. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S8x128x8x128 := Rect.unit (s := S8x128x8x128) ![0, 0, 0, 0] S8x128x8x128.size inb_S8x128x8x128_S8x128x8x128_0_0_0_0
abbrev rM1 : Rect S8x128 := Rect.unit (s := S8x128) ![0, 0] S8x128.size inb_S8x128_S8x128_0_0

/-- What the body leaves in the output block: the product of the x block and the broadcast mask block, one whole store. -/
def scaleOut (x0 : Vec F S8x128x8x128 .f32) (m0 : Vec F S8x128 .f32) : Vec F S8x128x8x128 .f32 :=
  View.canon [⟨rX1, k1_pay1 (View.ld m0 rM1) (View.ld x0 rX1)⟩]

theorem scaleCover (p0 : Vec F S8x128x8x128 .f32) (y : S8x128x8x128.Idx) :
    ∃ pc ∈ ([⟨rX1, p0⟩] : List (View.Piece (Elt F) S8x128x8x128 .f32)), y ∈ pc.1.set :=
  View.cover_of_tiled [⟨rX1, p0⟩] S8x128x8x128.size (by rfl) y

set_option maxHeartbeats 1000000 in
/-- The body on whole staging memrefs: the inputs stay as they were and the output ends at the product. -/
theorem scale_run (c : Dev nD) (E : Set ℕ) (i : grid1.Coords)
    (xr : Memref sig .tc .vmem S8x128x8x128 .f32) (hx : xr.IsWhole) (mr : Memref sig .tc .vmem S8x128 .f32) (hm : mr.IsWhole)
    (orr : Memref sig .tc .vmem S8x128x8x128 .f32) (ho : orr.IsWhole)
    (x0 : Vec F S8x128x8x128 .f32) (m0 : Vec F S8x128 .f32) (K : PUnit → sProp 𝕄) :
    iprop(owns (c : Thread nD τ) xr fullShare x0 ∗ owns (c : Thread nD τ) mr fullShare m0 ∗ (∃ d, owns (c : Thread nD τ) orr fullShare d)
        ∗ (iprop(owns (c : Thread nD τ) xr fullShare x0 ∗ owns (c : Thread nD τ) mr fullShare m0
            ∗ owns (c : Thread nD τ) orr fullShare (scaleOut x0 m0)) -∗ K ⟨⟩))
      ⊢ wp frame (wpE (defs₀ (F := F)) Variants.none c none) E (cc1__scale_kernel i xr hx mr hm orr ho) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaleCover _)

/-- The proof data of pipeline 1 on core c: the arrays as the region finds them; after the body each input's buffer
    at its block and the output's at the product of the two blocks; nothing carried from point to point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scaleOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scaleOut (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (scale_run c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Launch.lean ====
/-
  The whole program run: region 0 (the statistics), nine stretches of host operations (the mask), region 1 (the gating),
  with the buffer contents named at every boundary. Region 0 leaves its two output arrays at the fold of its write-backs
  and every other unscoped buffer as launched; each host stretch applies its operations; region 1 leaves its output array
  at the fold of its write-backs and everything else as it found it. The run ends with every unscoped buffer at the last
  boundary's contents, from which the frame (the fifteen arguments end as launched) and the result buffer are read.
-/
import proofs.«109344_j12446815224180_1_alg».proof.Proof.Ideal.StatsData
import proofs.«109344_j12446815224180_1_alg».proof.Proof.Ideal.ScaleData
import proofs.«109344_j12446815224180_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the regions' boundaries -/

/-- Region 0 is entered from the launch memory. -/
abbrev Vin0 : (c : Dev nD) → (b : Ref sig .tc) → Buf (Elt F) ((c : Thread nD τ).loc b) := fun c b => Gen.V0 m c b

/-- After region 0: its arrays at what its write-backs leave, every other buffer as launched. -/
def W1 (c : Dev nD) : Valuation τ sig (Elt F) :=
  Pipeline.withArrays spec0 c (Gen.V0 m c) fun w => (dat0 (Vin0 m) c).arrAt w cfg0.N
theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w

/-- The contents the regions leave, with region 1's not yet named: region 0's at every position. -/
def outsPre : Gen.Outs (F := F) := fun _ r c => W1 m c r

/-- Region 1 is entered after the nine host stretches. -/
abbrev Vin1 : (c : Dev nD) → (b : Ref sig .tc) → Buf (Elt F) ((c : Thread nD τ).loc b) := fun c b => Gen.V10 m (outsPre m) c b

/-- After region 1: its arrays at what its write-backs leave, every other buffer as it found it. -/
def W11 (c : Dev nD) : Valuation τ sig (Elt F) :=
  Pipeline.withArrays spec1 c (Gen.V10 m (outsPre m) c) fun w => (dat1 (Vin1 m) c).arrAt w cfg1.N
theorem W11_arr (c : Dev nD) (w : Fin cfg1.W) :
    W11 m c (Proc.devRef .tc (Pipeline.arrRef spec1 w)) = (dat1 (Vin1 m) c).arrAt w cfg1.N := by
  unfold W11; exact Pipeline.withArrays_arr spec1 launch1.win.arr_inj c _ _ w

/-- The contents the regions leave: region 0's after item 0, region 1's after item 10. -/
def outs : Gen.Outs (F := F) := fun n r c => if n = 11 then W11 m c r else W1 m c r
theorem outs_one (r : Ref sig .tc) (c : Dev nD) : outs m 1 r c = W1 m c r := if_neg (by decide)
theorem outs_eleven (r : Ref sig .tc) (c : Dev nD) : outs m 11 r c = W11 m c r := if_pos rfl

theorem V1_outs (c : Dev nD) : Gen.V1 m (outs m) c = Gen.V1 m (outsPre m) c := by
  show Function.update (Function.update (Gen.V0 m c) main_v0_0 (outs m 1 main_v0_0 c)) main_v0_1 (outs m 1 main_v0_1 c)
    = Function.update (Function.update (Gen.V0 m c) main_v0_0 (outsPre m 1 main_v0_0 c)) main_v0_1 (outsPre m 1 main_v0_1 c)
  rw [outs_one, outs_one]; rfl
theorem V10_outs (c : Dev nD) : Gen.V10 m (outs m) c = Gen.V10 m (outsPre m) c :=
  congrArg (fun v => StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 v))))))))) (V1_outs m c)

/-- What region 0 left in its two outputs, and what region 1 left in its output, as the fold names them. -/
theorem V1_mean (o : Gen.Outs (F := F)) (ho : ∀ r c, o 1 r c = W1 m c r) (c : Dev nD) :
    Gen.V1 m o c main_v0_0 = (dat0 (Vin0 m) c).arrAt 1 cfg0.N := by
  show Function.update (Function.update (Gen.V0 m c) main_v0_0 (o 1 main_v0_0 c)) main_v0_1 (o 1 main_v0_1 c) main_v0_0 = _
  rw [Function.update_of_ne (StableHlo.devRef_ne_of_ne (by decide)), Function.update_self, ho]
  exact W1_arr m c 1
theorem V1_std (o : Gen.Outs (F := F)) (ho : ∀ r c, o 1 r c = W1 m c r) (c : Dev nD) :
    Gen.V1 m o c main_v0_1 = (dat0 (Vin0 m) c).arrAt 2 cfg0.N := by
  show Function.update (Function.update (Gen.V0 m c) main_v0_0 (o 1 main_v0_0 c)) main_v0_1 (o 1 main_v0_1 c) main_v0_1 = _
  rw [Function.update_self, ho]
  exact W1_arr m c 2
theorem V11_result (c : Dev nD) : Gen.V11 m (outs m) c main_v40 = (dat1 (Vin1 m) c).arrAt 2 cfg1.N := by
  show Function.update (Gen.V10 m (outs m) c) main_v40 (outs m 11 main_v40 c) main_v40 = _
  rw [Function.update_self, outs_eleven]
  exact W11_arr m c 2

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev noVar : Variants := Variants.none
abbrev noL : GSem nD τ sig → Finset Unit := fun _ => ∅
abbrev noLv : GSem nD τ sig → Unit → ℕ := fun _ _ => 0
/-- Beside the buffers through every item: the core's generator register at some state, and nothing owed. -/
abbrev Rr (c : Dev nD) : sProp 𝕄 := iprop((∃ r, prngReg c r) ∗ ∃ W, owes (c : Thread nD τ) (0 : CellTallies nD τ sig Unit) W)
abbrev Tn (c : Dev nD) : sProp 𝕄 := iprop(StableHlo.held (c : Thread nD τ) (Pipeline.ucRefs τ sig) (Gen.V11 m (outs m) c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hA0 (c : Dev nD) (w : Fin cfg0.W) : (pdats m 0 c).A w = Gen.V0 m c (Pipeline.arrRef spec0 w) := A_eq0 (Vin0 m) c w
theorem hA1 (c : Dev nD) (w : Fin cfg1.W) : (pdats m 1 c).A w = Gen.V10 m (outs m) c (Pipeline.arrRef spec1 w) :=
  (A_eq1 (Vin1 m) c w).trans (congrFun (V10_outs m c).symm _)

/-- At region 0's exit each of its arrays holds what the pipeline leaves and every other buffer what it held. -/
theorem hF0 (c : Dev nD) : ∀ w : Fin cfg0.W, (pdats m 0 c).arrAt w cfg0.N = Gen.V1 m (outs m) c (Pipeline.arrRef spec0 w)
  | ⟨0, _⟩ => ((dat0 (Vin0 m) c).arrAt_in 0 rfl _).trans ((A_eq0 (Vin0 m) c 0).trans (Gen.V1_of m (outs m) c main_arg0 (by decide)).symm)
  | ⟨1, _⟩ => (V1_mean m (outs m) (outs_one m) c).symm
  | ⟨2, _⟩ => (V1_std m (outs m) (outs_one m) c).symm
theorem hrest0 (c : Dev nD) : ∀ b, b ∉ Finset.univ.image (Pipeline.arrRef spec0) → Gen.V1 m (outs m) c b = Gen.V0 m c b :=
  fun b hb => Gen.V1_of m (outs m) c b (by
    intro hmem
    simp only [List.mem_cons, List.mem_nil_iff, or_false] at hmem
    rcases hmem with rfl | rfl
    · exact hb (Finset.mem_image.mpr ⟨1, Finset.mem_univ _, rfl⟩)
    · exact hb (Finset.mem_image.mpr ⟨2, Finset.mem_univ _, rfl⟩))

/-- The same at region 1's exit. -/
theorem hF1 (c : Dev nD) : ∀ w : Fin cfg1.W, (pdats m 1 c).arrAt w cfg1.N = Gen.V11 m (outs m) c (Pipeline.arrRef spec1 w)
  | ⟨0, _⟩ => ((dat1 (Vin1 m) c).arrAt_in 0 rfl _).trans ((hA1 m c 0).trans (Gen.V11_of m (outs m) c main_arg0 (by decide)).symm)
  | ⟨1, _⟩ => ((dat1 (Vin1 m) c).arrAt_in 1 rfl _).trans ((hA1 m c 1).trans (Gen.V11_of m (outs m) c main_v39 (by decide)).symm)
  | ⟨2, _⟩ => (V11_result m c).symm
theorem hrest1 (c : Dev nD) : ∀ b, b ∉ Finset.univ.image (Pipeline.arrRef spec1) → Gen.V11 m (outs m) c b = Gen.V10 m (outs m) c b :=
  fun b hb => Gen.V11_of m (outs m) c b (by
    intro hmem
    simp only [List.mem_cons, List.mem_nil_iff, or_false] at hmem
    subst hmem
    exact hb (Finset.mem_image.mpr ⟨2, Finset.mem_univ _, rfl⟩))

/-! ## The regions as segments -/

set_option backward.isDefEq.respectTransparency.types false in
/-- Region 0 over the thread state: entered with every unscoped buffer as launched, left with its two outputs at what
    its write-backs leave. The accumulators' contents are carried by the invariant and forgotten at the exit. -/
def reg0 : Pipeline.RegionSeg (pcfgs (F := F)) Gen.adm (pdats m) () defs₀ noVar noL noLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noL noLv 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => Gen.V0 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V0 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V0 m c b) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered after the host stretches, left with its output at what its write-backs leave. -/
def reg1 : Pipeline.RegionSeg (pcfgs (F := F)) Gen.adm (pdats m) () defs₀ noVar noL noLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noL noLv 1 fun _ _ => rfl
  pre c := iprop(StableHlo.held (c : Thread nD τ) (Pipeline.ucRefs τ sig) (Gen.V10 m (outs m) c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => Gen.V10 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V10 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V10 m (outs m) c b) (fun b => Gen.V11 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V11 m (outs m) c b) :=
  Pipeline.θ_run_regions_kit_dev (pcfgs (F := F)) Gen.adm (pdats m) () cellOf_inj emb₁ defs₀ noVar noL noLv m ρ main
    (Gen.segs m (outs m) noVar noL noLv (fun _ c => Rr c) () (pdats m) (reg0 m) (reg1 m))
    (fun c Q => by
      rewrite [main_chain c, Seg.run_eq_chain,
        show (Gen.segs m (outs m) noVar noL noLv (fun _ c => Rr c) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tn m)
    (hch := fun c => ⟨.rfl, .rfl, .rfl, .rfl, .rfl, .rfl, .rfl, .rfl, .rfl, .rfl, .rfl, .rfl⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h => h)

/-- THE FRAME: the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
      (h c _ (mem_uc main_arg0 (by decide))).trans (Gen.V11_main_arg0 m (outs m) c),
      (h c _ (mem_uc main_arg1 (by decide))).trans (Gen.V11_main_arg1 m (outs m) c),
      (h c _ (mem_uc main_arg2 (by decide))).trans (Gen.V11_main_arg2 m (outs m) c),
      (h c _ (mem_uc main_arg3 (by decide))).trans (Gen.V11_main_arg3 m (outs m) c),
      (h c _ (mem_uc main_arg4 (by decide))).trans (Gen.V11_main_arg4 m (outs m) c),
      (h c _ (mem_uc main_arg5 (by decide))).trans (Gen.V11_main_arg5 m (outs m) c),
      (h c _ (mem_uc main_arg6 (by decide))).trans (Gen.V11_main_arg6 m (outs m) c),
      (h c _ (mem_uc main_arg7 (by decide))).trans (Gen.V11_main_arg7 m (outs m) c),
      (h c _ (mem_uc main_arg8 (by decide))).trans (Gen.V11_main_arg8 m (outs m) c),
      (h c _ (mem_uc main_arg9 (by decide))).trans (Gen.V11_main_arg9 m (outs m) c),
      (h c _ (mem_uc main_arg10 (by decide))).trans (Gen.V11_main_arg10 m (outs m) c),
      (h c _ (mem_uc main_arg11 (by decide))).trans (Gen.V11_main_arg11 m (outs m) c),
      (h c _ (mem_uc main_arg12 (by decide))).trans (Gen.V11_main_arg12 m (outs m) c),
      (h c _ (mem_uc main_arg13 (by decide))).trans (Gen.V11_main_arg13 m (outs m) c),
      (h c _ (mem_uc main_arg14 (by decide))).trans (Gen.V11_main_arg14 m (outs m) c)⟩) (run_all m ρ)

/-- THE RESULT: the result buffer ends at what region 1's write-backs leave, beside the frame. -/
theorem result_run : θ_run defs (onTc (τ := τ) (main (F := F))) ⟨m, fun _ => 0, ρ⟩ (fun r => ∀ c : Dev nD,
      r.2.mem ((c.tc : Thread nD τ).loc main_v40) = (dat1 (Vin1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v40 (by decide))).trans (V11_result m c),
      (h c _ (mem_uc main_arg0 (by decide))).trans (Gen.V11_main_arg0 m (outs m) c),
      (h c _ (mem_uc main_arg1 (by decide))).trans (Gen.V11_main_arg1 m (outs m) c),
      (h c _ (mem_uc main_arg2 (by decide))).trans (Gen.V11_main_arg2 m (outs m) c),
      (h c _ (mem_uc main_arg3 (by decide))).trans (Gen.V11_main_arg3 m (outs m) c),
      (h c _ (mem_uc main_arg4 (by decide))).trans (Gen.V11_main_arg4 m (outs m) c),
      (h c _ (mem_uc main_arg5 (by decide))).trans (Gen.V11_main_arg5 m (outs m) c),
      (h c _ (mem_uc main_arg6 (by decide))).trans (Gen.V11_main_arg6 m (outs m) c),
      (h c _ (mem_uc main_arg7 (by decide))).trans (Gen.V11_main_arg7 m (outs m) c),
      (h c _ (mem_uc main_arg8 (by decide))).trans (Gen.V11_main_arg8 m (outs m) c),
      (h c _ (mem_uc main_arg9 (by decide))).trans (Gen.V11_main_arg9 m (outs m) c),
      (h c _ (mem_uc main_arg10 (by decide))).trans (Gen.V11_main_arg10 m (outs m) c),
      (h c _ (mem_uc main_arg11 (by decide))).trans (Gen.V11_main_arg11 m (outs m) c),
      (h c _ (mem_uc main_arg12 (by decide))).trans (Gen.V11_main_arg12 m (outs m) c),
      (h c _ (mem_uc main_arg13 (by decide))).trans (Gen.V11_main_arg13 m (outs m) c),
      (h c _ (mem_uc main_arg14 (by decide))).trans (Gen.V11_main_arg14 m (outs m) c)⟩) (run_all m ρ)

end Cert.KernelIdeal.Hand

end
-- ==== Proof.Spec.lean ====
/-
  The specification, free of any program. x is an array of shape 16 x 256 x 128 x 128 of extended reals; for a batch
  index b and a channel ch, with n = 16384 = 128 * 128 the number of spatial positions:
    mean  =  (sum_{h,w} x[b,ch,h,w]) / n
    the kernel's deviation     sqrt (max ((sum_{h,w} x^2) / n - mean^2) 0)
    the reference's deviation  sqrt ((sum_{h,w} (x - mean)^2) / n)
  The two deviations agree when every entry of x is a real number: expanding the square,
  sum (x - mean)^2 = sum x^2 - 2 mean sum x + n mean^2 = sum x^2 - n mean^2, so the two variances are one real number,
  which is a mean of squares and hence nonnegative, so the maximum with 0 changes nothing. At infinite entries the
  expansion fails (inf - inf), which is why the entries' finiteness is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The array's shape and the per-(batch, channel) shape, spelt as the programs spell them. -/
abbrev SX : Shape := ⟨4, ![16, 256, 128, 128]⟩
abbrev SBC : Shape := ⟨2, ![16, 256]⟩

/-- The number of spatial positions, as the float literal both programs divide by. -/
def nLit : EReal := Ideal.ofBits .f32 0x46800000#32
/-- The zero literal the kernel takes the maximum with. -/
def zLit : EReal := Ideal.ofBits .f32 0x00000000#32

theorem nLit_eq : nLit = ((16384 : ℝ) : EReal) := by
  unfold nLit
  simp [Ideal.ofBits, Ideal.ieee, -EReal.coe_mul]; norm_num
theorem zLit_eq : zLit = 0 := Ideal.ofBits_zero_f32

/-- The sum of f over the 128 x 128 spatial positions of (b, ch). -/
def sumHW (f : SX.Idx → EReal) (b : Fin 16) (ch : Fin 256) : EReal :=
  ∑ h : Fin 128, ∑ w : Fin 128, f (ix4 b ch h w)

/-- The spatial mean. -/
def meanAt (x : SX.Idx → EReal) (b : Fin 16) (ch : Fin 256) : EReal := Ideal.div (sumHW x b ch) nLit

/-- The kernel's standard deviation: from the mean of squares and the squared mean, clamped at zero. -/
def stdK (x : SX.Idx → EReal) (b : Fin 16) (ch : Fin 256) : EReal :=
  Ideal.sqrt (max (Ideal.div (sumHW (fun i => x i * x i) b ch) nLit - meanAt x b ch * meanAt x b ch) zLit)

/-- The reference's standard deviation: from the mean of the squared deviations. -/
def stdR (x : SX.Idx → EReal) (b : Fin 16) (ch : Fin 256) : EReal :=
  Ideal.sqrt (Ideal.div (sumHW (fun i => (x i - meanAt x (i 0) (i 1)) * (x i - meanAt x (i 0) (i 1))) b ch) nLit)

/-- The coercion of the reals into the extended reals commutes with finite sums. -/
private theorem coe_finsum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The spatial sum of a real-valued array is the coercion of the real double sum. -/
private theorem sumHW_coe (g : SX.Idx → ℝ) (b : Fin 16) (ch : Fin 256) :
    sumHW (fun i => ((g i : ℝ) : EReal)) b ch
      = ((∑ h : Fin 128, ∑ w : Fin 128, g (ix4 b ch h w) : ℝ) : EReal) := by
  unfold sumHW
  simp only [coe_finsum]

/-- The spatial mean of a real-valued array is the coercion of the real mean. -/
private theorem meanAt_coe (r : SX.Idx → ℝ) (b : Fin 16) (ch : Fin 256) :
    meanAt (fun i => ((r i : ℝ) : EReal)) b ch
      = (((∑ h : Fin 128, ∑ w : Fin 128, r (ix4 b ch h w)) * (1 / 16384) : ℝ) : EReal) := by
  unfold meanAt
  rw [sumHW_coe, nLit_eq, Ideal.div_coe (by norm_num), ← EReal.coe_mul]

/-- Expanding the square under the double sum: the 128 * 128 = 16384 terms each contribute m * m. -/
private theorem sum_sq_dev (f : Fin 128 → Fin 128 → ℝ) (m : ℝ) :
    ∑ h : Fin 128, ∑ w : Fin 128, (f h w - m) * (f h w - m)
      = (∑ h : Fin 128, ∑ w : Fin 128, f h w * f h w) - 2 * m * (∑ h : Fin 128, ∑ w : Fin 128, f h w)
        + 16384 * (m * m) := by
  have h1 : ∀ h w, (f h w - m) * (f h w - m) = f h w * f h w - 2 * m * f h w + m * m := fun h w => by ring
  simp only [h1, Finset.sum_add_distrib, Finset.sum_sub_distrib, ← Finset.mul_sum, Finset.sum_const,
    Finset.card_univ, Fintype.card_fin, nsmul_eq_mul]
  push_cast
  ring

/-- The two variances of a real array are one real number: with m the mean, the cross term is -2 n m^2. -/
private theorem var_real (f : Fin 128 → Fin 128 → ℝ) :
    (∑ h : Fin 128, ∑ w : Fin 128, f h w * f h w) * (1 / 16384)
        - (∑ h : Fin 128, ∑ w : Fin 128, f h w) * (1 / 16384) * ((∑ h : Fin 128, ∑ w : Fin 128, f h w) * (1 / 16384))
      = (∑ h : Fin 128, ∑ w : Fin 128,
          (f h w - (∑ h : Fin 128, ∑ w : Fin 128, f h w) * (1 / 16384))
            * (f h w - (∑ h : Fin 128, ∑ w : Fin 128, f h w) * (1 / 16384))) * (1 / 16384) := by
  rw [sum_sq_dev]
  ring

/-- A mean of squares is nonnegative. -/
private theorem var_nonneg (f : Fin 128 → Fin 128 → ℝ) (m : ℝ) :
    0 ≤ (∑ h : Fin 128, ∑ w : Fin 128, (f h w - m) * (f h w - m)) * (1 / 16384) := by
  apply mul_nonneg
  · exact Finset.sum_nonneg fun h _ => Finset.sum_nonneg fun w _ => mul_self_nonneg _
  · norm_num

/-- THE LAW on a real-valued array. -/
private theorem stdK_eq_stdR_real (r : SX.Idx → ℝ) (b : Fin 16) (ch : Fin 256) :
    stdK (fun i => ((r i : ℝ) : EReal)) b ch = stdR (fun i => ((r i : ℝ) : EReal)) b ch := by
  -- the kernel's variance is the coercion of a real number
  have eK : Ideal.div (sumHW (fun i => ((r i : ℝ) : EReal) * ((r i : ℝ) : EReal)) b ch) nLit
        - meanAt (fun i => ((r i : ℝ) : EReal)) b ch * meanAt (fun i => ((r i : ℝ) : EReal)) b ch
      = (((∑ h : Fin 128, ∑ w : Fin 128, r (ix4 b ch h w) * r (ix4 b ch h w)) * (1 / 16384)
          - (∑ h : Fin 128, ∑ w : Fin 128, r (ix4 b ch h w)) * (1 / 16384)
            * ((∑ h : Fin 128, ∑ w : Fin 128, r (ix4 b ch h w)) * (1 / 16384)) : ℝ) : EReal) := by
    have e1 : (fun i : SX.Idx => ((r i : ℝ) : EReal) * ((r i : ℝ) : EReal))
        = fun i => ((r i * r i : ℝ) : EReal) := by
      funext i; rw [EReal.coe_mul]
    rw [e1, sumHW_coe, nLit_eq, Ideal.div_coe (by norm_num), meanAt_coe, ← EReal.coe_mul, ← EReal.coe_mul,
      ← EReal.coe_sub]
  -- the reference's variance is the coercion of a real number
  have eR : Ideal.div (sumHW (fun i => (((r i : ℝ) : EReal) - meanAt (fun i => ((r i : ℝ) : EReal)) (i 0) (i 1))
          * (((r i : ℝ) : EReal) - meanAt (fun i => ((r i : ℝ) : EReal)) (i 0) (i 1))) b ch) nLit
      = (((∑ h : Fin 128, ∑ w : Fin 128,
            (r (ix4 b ch h w) - (∑ h : Fin 128, ∑ w : Fin 128, r (ix4 b ch h w)) * (1 / 16384))
              * (r (ix4 b ch h w) - (∑ h : Fin 128, ∑ w : Fin 128, r (ix4 b ch h w)) * (1 / 16384)))
          * (1 / 16384) : ℝ) : EReal) := by
    have e2 : (fun i : SX.Idx => (((r i : ℝ) : EReal) - meanAt (fun i => ((r i : ℝ) : EReal)) (i 0) (i 1))
          * (((r i : ℝ) : EReal) - meanAt (fun i => ((r i : ℝ) : EReal)) (i 0) (i 1)))
        = fun i => (((r i - (∑ h : Fin 128, ∑ w : Fin 128, r (ix4 (i 0) (i 1) h w)) * (1 / 16384))
            * (r i - (∑ h : Fin 128, ∑ w : Fin 128, r (ix4 (i 0) (i 1) h w)) * (1 / 16384)) : ℝ) : EReal) := by
      funext i; rw [meanAt_coe r (i 0) (i 1), ← EReal.coe_sub, ← EReal.coe_mul]
    rw [e2, sumHW_coe, nLit_eq, Ideal.div_coe (by norm_num), ← EReal.coe_mul]
  unfold stdK stdR
  rw [eK, eR, zLit_eq, var_real (fun h w => r (ix4 b ch h w))]
  rw [max_eq_left (EReal.coe_nonneg.mpr (var_nonneg (fun h w => r (ix4 b ch h w)) _))]

/-- THE LAW: on an array of real numbers the two standard deviations are one. -/
theorem stdK_eq_stdR (x : SX.Idx → EReal) (hfin : ∀ i, ∃ r : ℝ, x i = (r : EReal)) (b : Fin 16) (ch : Fin 256) :
    stdK x b ch = stdR x b ch := by
  choose r hr using hfin
  have hx : x = fun i => ((r i : ℝ) : EReal) := funext hr
  rw [hx]
  exact stdK_eq_stdR_real r b ch

end Cert.Spec

end
-- ==== Proof.Ideal.StatsValue.lean ====
/-
  What the statistics region leaves in its two output arrays, at the exact instance: the array of spatial means and
  the array of the kernel's standard deviations of x = the contents of the first argument when the region is entered.
  Row block bo of either output is written back once, at the last of the 16 steps of bo, from the accumulators, which by
  then hold the sums over all 16 row strips of 8 rows (8 * 16 = 128 rows): sums over the whole spatial extent.
-/
import proofs.«109344_j12446815224180_1_alg».proof.Proof.Ideal.StatsData
import proofs.«109344_j12446815224180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- A lane sum read at an index. -/
theorem laneSum_apply (v : FVec Ideal S8x256x8x128 .f32) (r : Fin 8) (ch : Fin 256) (h8 : Fin 8) :
    multiReduction (F := Ideal) .add [3] S8x256x8 v 0x00000000#32 reduces_S8x256x8x128_S8x256x8 (.inl rfl) rfl (ix3 r ch h8)
      = ∑ w : Fin 128, v (ix4 r ch h8 w) := by
  refine (Ideal.multiReduction_add_single v 0x00000000#32 reduces_S8x256x8x128_S8x256x8 (.inl rfl) rfl (ix3 r ch h8)).trans ?_
  refine Finset.sum_congr rfl fun w _ => congrArg v ?_
  funext d
  match d with
  | ⟨0, _⟩ => rfl
  | ⟨1, _⟩ => rfl
  | ⟨2, _⟩ => rfl
  | ⟨3, _⟩ => rfl

/-- A sublane sum read at an index. -/
theorem subSum_apply (v : FVec Ideal S8x256x8 .f32) (r : Fin 8) (ch : Fin 256) :
    multiReduction (F := Ideal) .add [2] S8x256 v 0x00000000#32 reduces_S8x256x8_S8x256 (.inl rfl) rfl (ix2 r ch)
      = ∑ h8 : Fin 8, v (ix3 r ch h8) := by
  refine (Ideal.multiReduction_add_single v 0x00000000#32 reduces_S8x256x8_S8x256 (.inl rfl) rfl (ix2 r ch)).trans ?_
  refine Finset.sum_congr rfl fun h8 _ => congrArg v ?_
  funext d
  match d with
  | ⟨0, _⟩ => rfl
  | ⟨1, _⟩ => rfl
  | ⟨2, _⟩ => rfl

/-- The sum accumulator's update read at an index. -/
theorem pay3_apply (x0 : FVec Ideal S8x256x8x128 .f32) (a : FVec Ideal S8x256 .f32) (r : Fin 8) (ch : Fin 256) :
    k0_pay3 x0 a (ix2 r ch) = a (ix2 r ch) + ∑ h8 : Fin 8, ∑ w : Fin 128, x0 (ix4 r ch h8 w) := by
  unfold k0_pay3
  simp only [shapeCast_self, addf_apply]
  refine congrArg (a (ix2 r ch) + ·) ?_
  refine (subSum_apply _ r ch).trans ?_
  exact Finset.sum_congr rfl fun h8 _ => laneSum_apply x0 r ch h8

/-- The square accumulator's update read at an index. -/
theorem pay4_apply (x0 : FVec Ideal S8x256x8x128 .f32) (b : FVec Ideal S8x256 .f32) (r : Fin 8) (ch : Fin 256) :
    k0_pay4 x0 b (ix2 r ch) = b (ix2 r ch) + ∑ h8 : Fin 8, ∑ w : Fin 128, x0 (ix4 r ch h8 w) * x0 (ix4 r ch h8 w) := by
  unfold k0_pay4
  simp only [shapeCast_self, addf_apply]
  refine congrArg (b (ix2 r ch) + ·) ?_
  refine (subSum_apply _ r ch).trans ?_
  refine Finset.sum_congr rfl fun h8 _ => ?_
  refine (laneSum_apply _ r ch h8).trans ?_
  rfl

/-- The accumulators start from zero. -/
theorem pay1_apply (j : S8x256.Idx) : (k0_pay1 (F := Ideal)) j = 0 := by
  unfold k0_pay1
  simp only [shapeCast_self, broadcast_apply]
  exact Ideal.ofBits_zero_f32
theorem pay2_apply (j : S8x256.Idx) : (k0_pay2 (F := Ideal)) j = 0 := by
  unfold k0_pay2
  simp only [shapeCast_self, broadcast_apply]
  exact Ideal.ofBits_zero_f32

/-- The mean payload and the deviation payload at an index. -/
theorem pay5_apply (a : FVec Ideal S8x256 .f32) (j : S8x256.Idx) :
    k0_pay5 (F := Ideal) a j = Ideal.div (a j) Cert.Spec.nLit := rfl
theorem pay6_apply (a b : FVec Ideal S8x256 .f32) (j : S8x256.Idx) :
    k0_pay6 (F := Ideal) a b j = Ideal.sqrt (max (Ideal.div (b j) Cert.Spec.nLit - Ideal.div (a j) Cert.Spec.nLit * Ideal.div (a j) Cert.Spec.nLit) Cert.Spec.zLit) := rfl

/-- The windows' block indices at point t = 16 bo + ho: the x window is at (bo, 0, ho, 0), both outputs at (bo, 0). -/
theorem idx_facts : ∀ t : Fin cfg0.N,
    win0_0.index t (0 : Fin 4) = t.val / 16 ∧ win0_0.index t (1 : Fin 4) = 0
    ∧ win0_0.index t (2 : Fin 4) = t.val % 16 ∧ win0_0.index t (3 : Fin 4) = 0
    ∧ win0_1.index t (0 : Fin 2) = t.val / 16 ∧ win0_1.index t (1 : Fin 2) = 0
    ∧ win0_2.index t (0 : Fin 2) = t.val / 16 ∧ win0_2.index t (1 : Fin 2) = 0 :=
  (by decide +kernel : ∀ t : Fin grid0.N, _)

/-- The x block at point t and the x array as the region finds it, at their literal types. -/
abbrev xblk (c : Dev nD) (t : Fin cfg0.N) : FVec Ideal S8x256x8x128 .f32 := iblk0 V c 0 t
abbrev xarr (c : Dev nD) : S16x256x128x128.Idx → EReal := V c main_arg0

/-- The x window's block at point t, entry by entry: x at (8 bo + r, ch, 8 ho + h8, w). -/
theorem iblk_apply (c : Dev nD) (t : Fin cfg0.N) (r : Fin 8) (ch : Fin 256) (h8 : Fin 8) (w : Fin 128)
    (k : S16x256x128x128.Idx) (hk0 : (k 0).val = 8 * (t.val / 16) + r.val) (hk1 : (k 1).val = ch.val)
    (hk2 : (k 2).val = 8 * (t.val % 16) + h8.val) (hk3 : (k 3).val = w.val) :
    xblk V c t (ix4 r ch h8 w) = xarr V c k := by
  obtain ⟨e0, e1, e2, e3, -⟩ := idx_facts t
  unfold xblk xarr iblk0
  rw [View.read_apply]
  show V c main_arg0 _ = V c main_arg0 _
  congr 1
  funext a
  apply Fin.ext
  match a with
  | ⟨0, _⟩ => show win0_0.index t (0 : Fin 4) * 8 + 1 * r.val = (k 0).val; rw [e0, hk0]; omega
  | ⟨1, _⟩ => show win0_0.index t (1 : Fin 4) * 256 + 1 * ch.val = (k 1).val; rw [e1, hk1]; omega
  | ⟨2, _⟩ => show win0_0.index t (2 : Fin 4) * 8 + 1 * h8.val = (k 2).val; rw [e2, hk2]; omega
  | ⟨3, _⟩ => show win0_0.index t (3 : Fin 4) * 128 + 1 * w.val = (k 3).val; rw [e3, hk3]; omega

/-- The sum of f over the 8 rows of row strip ho and the 128 lanes, at (b, ch). -/
def strip (f : S16x256x128x128.Idx → EReal) (b : Fin 16) (ch : Fin 256) (ho : ℕ) : EReal :=
  ∑ h8 : Fin 8, ∑ w : Fin 128, f (ix4 b ch ⟨(8 * ho + h8.val) % 128, Nat.mod_lt _ (by norm_num)⟩ w)

/-- The block of point t summed over its rows and lanes is strip ho of x, and likewise for the squares. -/
theorem blockSum_eq (c : Dev nD) (t : Fin cfg0.N) (r : Fin 8) (ch : Fin 256) (b : Fin 16)
    (hb : b.val = 8 * (t.val / 16) + r.val) :
    ∑ h8 : Fin 8, ∑ w : Fin 128, xblk V c t (ix4 r ch h8 w)
      = strip (xarr V c) b ch (t.val % 16) := by
  unfold strip
  refine Finset.sum_congr rfl fun h8 _ => Finset.sum_congr rfl fun w _ => ?_
  have h8lt : h8.val < 8 := h8.isLt
  refine iblk_apply V c t r ch h8 w _ hb rfl ?_ rfl
  show (8 * (t.val % 16) + h8.val) % 128 = 8 * (t.val % 16) + h8.val
  omega

theorem blockSqSum_eq (c : Dev nD) (t : Fin cfg0.N) (r : Fin 8) (ch : Fin 256) (b : Fin 16)
    (hb : b.val = 8 * (t.val / 16) + r.val) :
    ∑ h8 : Fin 8, ∑ w : Fin 128, xblk V c t (ix4 r ch h8 w)
        * xblk V c t (ix4 r ch h8 w)
      = strip (fun i => (xarr V c) i * (xarr V c) i) b ch (t.val % 16) := by
  unfold strip
  refine Finset.sum_congr rfl fun h8 _ => Finset.sum_congr rfl fun w _ => ?_
  have h8lt : h8.val < 8 := h8.isLt
  have e := iblk_apply V c t r ch h8 w (ix4 b ch ⟨(8 * (t.val % 16) + h8.val) % 128, Nat.mod_lt _ (by norm_num)⟩ w) hb rfl
    (show (8 * (t.val % 16) + h8.val) % 128 = 8 * (t.val % 16) + h8.val by omega) rfl
  exact congrArg (fun z => z * z) e

/-- THE INVARIANT: after point n = 16 bo + j the accumulators hold, at (r, ch), the sums of x and of x*x over the
    row strips 0..j of batch row 8 bo + r. -/
theorem acc_inv (c : Dev nD) : ∀ (n : ℕ) (hn : n < cfg0.N) (r : Fin 8) (ch : Fin 256) (b : Fin 16)
    (hb : b.val = 8 * (n / 16) + r.val),
    (accAt V c n hn).1 (ix2 r ch)
        = ∑ ho ∈ Finset.range (n % 16 + 1), strip (xarr V c) b ch ho
    ∧ (accAt V c n hn).2 (ix2 r ch)
        = ∑ ho ∈ Finset.range (n % 16 + 1),
            strip (fun i => (xarr V c) i * (xarr V c) i) b ch ho := by
  intro n
  induction n with
  | zero =>
    intro hn r ch b hb
    rw [accAt_first V c ⟨0, hn⟩ rfl]
    dsimp only
    constructor
    · refine (pay3_apply (xblk V c ⟨0, hn⟩) _ r ch).trans ?_
      rw [pay1_apply, zero_add, blockSum_eq V c ⟨0, hn⟩ r ch b hb]
      simp
    · refine (pay4_apply (xblk V c ⟨0, hn⟩) _ r ch).trans ?_
      rw [pay2_apply, zero_add, blockSqSum_eq V c ⟨0, hn⟩ r ch b hb]
      simp
  | succ n ih =>
    intro hn r ch b hb
    by_cases h0 : (n + 1) % 16 = 0
    · rw [accAt_first V c ⟨n + 1, hn⟩ h0]
      dsimp only
      constructor
      · refine (pay3_apply (xblk V c ⟨n + 1, hn⟩) _ r ch).trans ?_
        rw [pay1_apply, zero_add, blockSum_eq V c ⟨n + 1, hn⟩ r ch b hb]
        dsimp only
        rw [h0]; simp
      · refine (pay4_apply (xblk V c ⟨n + 1, hn⟩) _ r ch).trans ?_
        rw [pay2_apply, zero_add, blockSqSum_eq V c ⟨n + 1, hn⟩ r ch b hb]
        dsimp only
        rw [h0]; simp
    · rw [accAt_next V c ⟨n + 1, hn⟩ h0]
      dsimp only
      have hq : n / 16 = (n + 1) / 16 := by omega
      have hm : n % 16 + 1 = (n + 1) % 16 := by omega
      obtain ⟨i1, i2⟩ := ih (Nat.lt_of_succ_lt hn) r ch b (by rw [hq]; exact hb)
      constructor
      · refine (pay3_apply (xblk V c ⟨n + 1, hn⟩) _ r ch).trans ?_
        rw [blockSum_eq V c ⟨n + 1, hn⟩ r ch b hb]
        dsimp only
        rw [Finset.sum_range_succ, ← hm]
        exact congrArg (· + _) i1
      · refine (pay4_apply (xblk V c ⟨n + 1, hn⟩) _ r ch).trans ?_
        rw [blockSqSum_eq V c ⟨n + 1, hn⟩ r ch b hb]
        dsimp only
        rw [Finset.sum_range_succ, ← hm]
        exact congrArg (· + _) i2

/-- The 16 strips of 8 rows are the 128 rows: h = 8 ho + h8 runs through Fin 128 once. -/
theorem sum_rows (g : Fin 128 → EReal) :
    ∑ ho : Fin 16, ∑ h8 : Fin 8, g ⟨(8 * ho.val + h8.val) % 128, Nat.mod_lt _ (by norm_num)⟩ = ∑ h : Fin 128, g h := by
  refine (Fintype.sum_prod_type' (fun (ho : Fin 16) (h8 : Fin 8) =>
    g ⟨(8 * ho.val + h8.val) % 128, Nat.mod_lt _ (by norm_num)⟩)).symm.trans ?_
  refine Fintype.sum_equiv (finProdFinEquiv (m := 16) (n := 8)) _ _ fun p => congrArg g (Fin.ext ?_)
  have h1 : p.1.val < 16 := p.1.isLt
  have h2 : p.2.val < 8 := p.2.isLt
  show (8 * p.1.val + p.2.val) % 128 = p.2.val + 8 * p.1.val
  omega

/-- So the strip sums of all 16 strips add up to the spatial sum. -/
theorem sum_strips (f : S16x256x128x128.Idx → EReal) (b : Fin 16) (ch : Fin 256) :
    ∑ ho ∈ Finset.range 16, strip f b ch ho = Cert.Spec.sumHW f b ch := by
  unfold Cert.Spec.sumHW strip
  rw [Finset.sum_range]
  exact sum_rows (fun h => ∑ w : Fin 128, f (ix4 b ch h w))

/-- At the last step of batch block bo the mean payload of the accumulators is the spatial mean of row 8 bo + r. -/
theorem mean_point (c : Dev nD) (t : Fin cfg0.N) (h15 : t.val % 16 = 15) (r : Fin 8) (ch : Fin 256) (b : Fin 16)
    (hb : b.val = 8 * (t.val / 16) + r.val) :
    k0_pay5 (F := Ideal) (accAt V c t.val t.isLt).1 (ix2 r ch) = Cert.Spec.meanAt (xarr V c) b ch := by
  obtain ⟨i1, -⟩ := acc_inv V c t.val t.isLt r ch b hb
  have h16 : t.val % 16 + 1 = 16 := by omega
  rw [pay5_apply, i1, h16, sum_strips]
  rfl

/-- And the deviation payload is the kernel's deviation of that row. -/
theorem std_point (c : Dev nD) (t : Fin cfg0.N) (h15 : t.val % 16 = 15) (r : Fin 8) (ch : Fin 256) (b : Fin 16)
    (hb : b.val = 8 * (t.val / 16) + r.val) :
    k0_pay6 (F := Ideal) (accAt V c t.val t.isLt).1 (accAt V c t.val t.isLt).2 (ix2 r ch) = Cert.Spec.stdK (xarr V c) b ch := by
  obtain ⟨i1, i2⟩ := acc_inv V c t.val t.isLt r ch b hb
  have h16 : t.val % 16 + 1 = 16 := by omega
  rw [pay6_apply, i1, i2, h16, sum_strips, sum_strips]
  rfl

/-- The array of spatial means and the array of the kernel's deviations of x. -/
abbrev meanArr (c : Dev nD) : S16x256.Idx → EReal := fun j => Cert.Spec.meanAt (xarr V c) (j 0) (j 1)
abbrev stdArr (c : Dev nD) : S16x256.Idx → EReal := fun j => Cert.Spec.stdK (xarr V c) (j 0) (j 1)

/-- What a flushing point writes back into the mean array is its block of the array of means. -/
theorem flushed1_eq (c : Dev nD) (t : Fin cfg0.N) (hf : (cfg0.win 1).flush t = true) :
    (dat0 V c).flushed 1 t = ((cfg0.win 1).blk t).view.read (Elt Ideal) (meanArr V c) := by
  have h15 : t.val % 16 = 15 := (flush0_1 t).mp hf
  obtain ⟨-, -, -, -, e4, e5, -, -⟩ := idx_facts t
  show (cfg0.win 1).cut (grid0.coords t) ((dat0 V c).after 1 t) = _
  rw [after0_1]
  funext y
  show k0_pay5 (F := Ideal) (accAt V c t.val t.isLt).1 y = meanArr V c (((cfg0.win 1).blk t).view.emb y)
  refine (congrArg (k0_pay5 (F := Ideal) (accAt V c t.val t.isLt).1) (eq_ix2 (n0 := 8) (n1 := 256) y)).trans ?_
  refine (mean_point V c t h15 (y 0) (y 1) ((((cfg0.win 1).blk t).view.emb y) 0) ?_).trans ?_
  · show win0_1.index t (0 : Fin 2) * 8 + 1 * (y 0).val = 8 * (t.val / 16) + (y 0).val
    rw [e4]; omega
  · refine congrArg (Cert.Spec.meanAt (xarr V c) _) (Fin.ext ?_)
    show (y 1).val = win0_1.index t (1 : Fin 2) * 256 + 1 * (y 1).val
    rw [e5]; omega

/-- What a flushing point writes back into the deviation array is its block of the array of deviations. -/
theorem flushed2_eq (c : Dev nD) (t : Fin cfg0.N) (hf : (cfg0.win 2).flush t = true) :
    (dat0 V c).flushed 2 t = ((cfg0.win 2).blk t).view.read (Elt Ideal) (stdArr V c) := by
  have h15 : t.val % 16 = 15 := (flush0_2 t).mp hf
  obtain ⟨-, -, -, -, -, -, e6, e7⟩ := idx_facts t
  show (cfg0.win 2).cut (grid0.coords t) ((dat0 V c).after 2 t) = _
  rw [after0_2]
  funext y
  show k0_pay6 (F := Ideal) (accAt V c t.val t.isLt).1 (accAt V c t.val t.isLt).2 y = stdArr V c (((cfg0.win 2).blk t).view.emb y)
  refine (congrArg (k0_pay6 (F := Ideal) (accAt V c t.val t.isLt).1 (accAt V c t.val t.isLt).2) (eq_ix2 (n0 := 8) (n1 := 256) y)).trans ?_
  refine (std_point V c t h15 (y 0) (y 1) ((((cfg0.win 2).blk t).view.emb y) 0) ?_).trans ?_
  · show win0_2.index t (0 : Fin 2) * 8 + 1 * (y 0).val = 8 * (t.val / 16) + (y 0).val
    rw [e6]; omega
  · refine congrArg (Cert.Spec.stdK (xarr V c) _) (Fin.ext ?_)
    show (y 1).val = win0_2.index t (1 : Fin 2) * 256 + 1 * (y 1).val
    rw [e7]; omega

/-- Row b of either output lies in the block written back at the last step of batch block b / 8. -/
theorem cover1 (i : S16x256.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hN : cfg0.N = 32 := N_0
  obtain ⟨t, ht⟩ : ∃ t : Fin cfg0.N, t.val = 16 * ((i 0).val / 8) + 15 := ⟨⟨_, by rw [hN]; omega⟩, rfl⟩
  obtain ⟨-, -, -, -, e4, e5, -, -⟩ := idx_facts t
  refine ⟨t, (flush0_1 t).mpr (by rw [ht]; omega), ?_⟩
  show i ∈ ((View.whole main_v0_0).slice (win0_1.rect t)).set
  rw [View.set_slice_whole, Rect.mem_set_unit]
  intro a
  match a with
  | ⟨0, _⟩ =>
    show win0_1.index t (0 : Fin 2) * 8 ≤ (i 0).val ∧ (i 0).val < win0_1.index t (0 : Fin 2) * 8 + 8
    rw [e4, ht]; omega
  | ⟨1, _⟩ =>
    show win0_1.index t (1 : Fin 2) * 256 ≤ (i 1).val ∧ (i 1).val < win0_1.index t (1 : Fin 2) * 256 + 256
    rw [e5]; omega

theorem cover2 (i : S16x256.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hN : cfg0.N = 32 := N_0
  obtain ⟨t, ht⟩ : ∃ t : Fin cfg0.N, t.val = 16 * ((i 0).val / 8) + 15 := ⟨⟨_, by rw [hN]; omega⟩, rfl⟩
  obtain ⟨-, -, -, -, -, -, e6, e7⟩ := idx_facts t
  refine ⟨t, (flush0_2 t).mpr (by rw [ht]; omega), ?_⟩
  show i ∈ ((View.whole main_v0_1).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    rw [e6, ht]; omega
  | ⟨1, _⟩ =>
    show win0_2.index t (1 : Fin 2) * 256 ≤ (i 1).val ∧ (i 1).val < win0_2.index t (1 : Fin 2) * 256 + 256
    rw [e7]; omega

/-- The mean output array after the region: the spatial mean of x at every (batch, channel). -/
theorem mean_arr (c : Dev nD) :
    ((dat0 (F := Ideal) V c).arrAt 1 cfg0.N : S16x256.Idx → EReal)
      = fun j => Cert.Spec.meanAt (V c main_arg0 : S16x256x128x128.Idx → EReal) (j 0) (j 1) :=
  (dat0 V c).arrAt_eq_of_cover 1 (meanArr V c) (flushed1_eq V c) cover1

/-- The deviation output array after the region: the kernel's standard deviation of x at every (batch, channel). -/
theorem std_arr (c : Dev nD) :
    ((dat0 (F := Ideal) V c).arrAt 2 cfg0.N : S16x256.Idx → EReal)
      = fun j => Cert.Spec.stdK (V c main_arg0 : S16x256x128x128.Idx → EReal) (j 0) (j 1) :=
  (dat0 V c).arrAt_eq_of_cover 2 (stdArr V c) (flushed2_eq V c) cover2

end Cert.KernelIdeal.Hand

end
-- ==== Proof.Ideal.ScaleValue.lean ====
/-
  What the gating region leaves in its output array, at the exact instance: x times the mask broadcast along the two
  spatial axes, where x and the mask are the contents of the region's two input arrays when it is entered. Every point
  writes its block back, and the 64 blocks tile the array.
-/
import proofs.«109344_j12446815224180_1_alg».proof.Proof.Ideal.ScaleData
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The gated array: entry (b, ch, h, w) is x[b, ch, h, w] * mask[b, ch]. -/
def gated (x : S16x256x128x128.Idx → EReal) (msk : S16x256.Idx → EReal) : S16x256x128x128.Idx → EReal :=
  fun i => x i * msk (ix2 (i 0) (i 1))

/-! ## The body's product at an index of the block -/

theorem scale_zeros4 : (![0, 0, 0, 0] : Fin 4 → Nat) = fun _ => 0 := funext fun a => by fin_cases a <;> rfl
theorem scale_zeros2 : (![0, 0] : Fin 2 → Nat) = fun _ => 0 := funext fun a => by fin_cases a <;> rfl

/-- The mask block viewed 8 x 128 x 1 x 1 and broadcast along the two spatial axes reads the mask at (b, ch). -/
theorem maskBroadcast_apply (m0 : S8x128.Idx → EReal) (b : Fin 8) (ch : Fin 128) (h : Fin 8) (w : Fin 128) :
    broadcastTo S8x128x8x128 (shapeCast S8x128x1x1 m0 shapeCasts_S8x128_S8x128x1x1) broadcasts_S8x128x1x1_S8x128x8x128 (ix4 b ch h w)
      = m0 (ix2 b ch) := by
  refine (broadcastTo_apply _ _ (ix4 b ch h w) (ix4 b ch (0 : Fin 1) (0 : Fin 1)) fun a => ?_).trans ?_
  · match a with
    | ⟨0, _⟩ => rfl
    | ⟨1, _⟩ => rfl
    | ⟨2, _⟩ => rfl
    | ⟨3, _⟩ => rfl
  · exact shapeCast_apply m0 _ _ _ (by
      rw [Shape.rowMajor_val_two, Shape.rowMajor_val_four]
      show b.val * 128 + ch.val = ((b.val * 128 + ch.val) * 1 + 0) * 1 + 0
      omega)

/-- What the body stores at (b, ch, h, w) of the block: the x block there times the mask block at (b, ch). -/
theorem scaleOut_apply (x0 : Vec Ideal S8x128x8x128 .f32) (m0 : Vec Ideal S8x128 .f32) (b : Fin 8) (ch : Fin 128) (h : Fin 8) (w : Fin 128) :
    scaleOut x0 m0 (ix4 b ch h w) = (x0 (ix4 b ch h w) : EReal) * m0 (ix2 b ch) := by
  unfold scaleOut
  rw [View.canon_unit_zero scale_zeros4]
  simp only [View.ld_unit_zero (S := S8x128x8x128) scale_zeros4, View.ld_unit_zero (S := S8x128) scale_zeros2]
  unfold k1_pay1
  simp only [shapeCast_self]
  rw [mulf_apply, maskBroadcast_apply]

/-! ## From the blocks to the array -/

/-- The gated array at an index, from the x array at that index and the mask array at its two leading coordinates. -/
theorem gated_at (x : S16x256x128x128.Idx → EReal) (msk : S16x256.Idx → EReal) (ix io : S16x256x128x128.Idx) (im : S16x256.Idx)
    (hx : ix = io) (hm : im = ix2 (io 0) (io 1)) : x ix * msk im = gated x msk io := by
  subst hx; subst hm; rfl

/-- The index maps, decided over the grid: the x window moves with the output window on all four axes, the mask
    window on the two leading ones. -/
theorem scale_index_facts : ∀ t : Fin cfg1.N,
    win1_0.index t (0 : Fin 4) = win1_2.index t (0 : Fin 4)
    ∧ win1_0.index t (1 : Fin 4) = win1_2.index t (1 : Fin 4)
    ∧ win1_0.index t (2 : Fin 4) = win1_2.index t (2 : Fin 4)
    ∧ win1_0.index t (3 : Fin 4) = win1_2.index t (3 : Fin 4)
    ∧ win1_1.index t (0 : Fin 2) = win1_2.index t (0 : Fin 4)
    ∧ win1_1.index t (1 : Fin 2) = win1_2.index t (1 : Fin 4) :=
  (by decide +kernel : ∀ t : Fin grid1.N, _)

/-- Every block of the 2 x 2 x 16 x 1 arrangement is some point's. -/
theorem scale_index_onto : ∀ (q0 : Fin 2) (q1 : Fin 2) (q2 : Fin 16), ∃ t : Fin cfg1.N, win1_2.index t = ![q0.val, q1.val, q2.val, 0] :=
  (by decide +kernel : ∀ (q0 : Fin 2) (q1 : Fin 2) (q2 : Fin 16), ∃ t : Fin grid1.N, win1_2.index t = ![q0.val, q1.val, q2.val, 0])

/-- What point t writes back is block t of the gated array of the two input arrays as the region finds them. -/
theorem scale_flushed_eq (c : Dev nD) (t : Fin cfg1.N) :
    (dat1 (F := Ideal) V c).flushed 2 t
      = ((cfg1.win 2).blk t).view.read (Elt Ideal) (gated (V c main_arg0 : S16x256x128x128.Idx → EReal) (V c main_v39 : S16x256.Idx → EReal)) := by
  show (cfg1.win 2).cut (grid1.coords t) ((dat1 V c).after 2 t) = _
  rw [after1_2]
  obtain ⟨e0, e1, e2, e3, e4, e5⟩ := scale_index_facts t
  funext j
  obtain ⟨b, ch, h, w, rfl⟩ : ∃ (b : Fin 8) (ch : Fin 128) (h : Fin 8) (w : Fin 128), j = ix4 b ch h w := ⟨j 0, j 1, j 2, j 3, eq_ix4 j⟩
  show scaleOut (iblk1 V c 0 t) (iblk1 V c 1 t) (ix4 b ch h w) = _
  rw [scaleOut_apply]
  -- a block's coordinate is its index times the block's extent plus the coordinate inside the block
  have hx : ((cfg1.win 0).blk t).view.emb (ix4 b ch h w) = ((cfg1.win 2).blk t).view.emb (ix4 b ch h w) := by
    funext a; apply Fin.ext
    match a with
    | ⟨0, _⟩ => show win1_0.index t (0 : Fin 4) * 8 + 1 * b.val = win1_2.index t (0 : Fin 4) * 8 + 1 * b.val; omega
    | ⟨1, _⟩ => show win1_0.index t (1 : Fin 4) * 128 + 1 * ch.val = win1_2.index t (1 : Fin 4) * 128 + 1 * ch.val; omega
    | ⟨2, _⟩ => show win1_0.index t (2 : Fin 4) * 8 + 1 * h.val = win1_2.index t (2 : Fin 4) * 8 + 1 * h.val; omega
    | ⟨3, _⟩ => show win1_0.index t (3 : Fin 4) * 128 + 1 * w.val = win1_2.index t (3 : Fin 4) * 128 + 1 * w.val; omega
  have hm : ((cfg1.win 1).blk t).view.emb (ix2 b ch)
      = ix2 (((cfg1.win 2).blk t).view.emb (ix4 b ch h w) 0) (((cfg1.win 2).blk t).view.emb (ix4 b ch h w) 1) := by
    funext a; apply Fin.ext
    match a with
    | ⟨0, _⟩ => show win1_1.index t (0 : Fin 2) * 8 + 1 * b.val = win1_2.index t (0 : Fin 4) * 8 + 1 * b.val; omega
    | ⟨1, _⟩ => show win1_1.index t (1 : Fin 2) * 128 + 1 * ch.val = win1_2.index t (1 : Fin 4) * 128 + 1 * ch.val; omega
  exact gated_at (V c main_arg0) (V c main_v39) _ _ _ hx hm

/-- An index of the array is in point t's block iff each coordinate is in the block's range on its axis. -/
theorem scale_mem_blk (t : Fin cfg1.N) (i : S16x256x128x128.Idx) :
    i ∈ ((cfg1.win 2).blk t).view.set
      ↔ ∀ a : Fin 4, win1_2.index t a * S8x128x8x128.size a ≤ (i a).val ∧ (i a).val < win1_2.index t a * S8x128x8x128.size a + S8x128x8x128.size a := by
  show i ∈ ((View.whole main_v40).slice (win1_2.rect t)).set ↔ _
  rw [View.set_slice_whole, Rect.mem_set_unit]
  exact Iff.rfl

/-- The 64 blocks tile the array: index (b, ch, h, w) lies in the block of the point whose block indices are
    (b / 8, ch / 128, h / 8, 0). -/
theorem scale_covered (i : S16x256x128x128.Idx) : ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := scale_index_onto ⟨(i 0).val / 8, by omega⟩ ⟨(i 1).val / 128, by omega⟩ ⟨(i 2).val / 8, by omega⟩
  have q0 : win1_2.index t (0 : Fin 4) = (i 0).val / 8 := congrFun ht 0
  have q1 : win1_2.index t (1 : Fin 4) = (i 1).val / 128 := congrFun ht 1
  have q2 : win1_2.index t (2 : Fin 4) = (i 2).val / 8 := congrFun ht 2
  have q3 : win1_2.index t (3 : Fin 4) = 0 := congrFun ht 3
  refine ⟨t, flush1_2 t, ?_⟩
  rw [scale_mem_blk]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 128 ≤ (i 1).val ∧ (i 1).val < win1_2.index t (1 : Fin 4) * 128 + 128; omega
  | ⟨2, _⟩ => show win1_2.index t (2 : Fin 4) * 8 ≤ (i 2).val ∧ (i 2).val < win1_2.index t (2 : Fin 4) * 8 + 8; omega
  | ⟨3, _⟩ => show win1_2.index t (3 : Fin 4) * 128 ≤ (i 3).val ∧ (i 3).val < win1_2.index t (3 : Fin 4) * 128 + 128; omega

/-- The output array after the region is the gated array of the two inputs as entered. -/
theorem scale_arr (c : Dev nD) :
    ((dat1 (F := Ideal) V c).arrAt 2 cfg1.N : S16x256x128x128.Idx → EReal)
      = gated (V c main_arg0 : S16x256x128x128.Idx → EReal) (V c main_v39 : S16x256.Idx → EReal) :=
  (dat1 (F := Ideal) V c).arrAt_eq_of_cover 2 (gated (V c main_arg0 : S16x256x128x128.Idx → EReal) (V c main_v39 : S16x256.Idx → EReal))
    (fun t _ => scale_flushed_eq V c t) scale_covered

end Cert.KernelIdeal.Hand

end
-- ==== Proof.Ideal.Mask.lean ====
/-
  The host computation between the two kernel regions, as ONE function of the deviation array sd, the mean array mu and
  the fourteen weight and bias arrays: three squeeze-and-excite stages (a dense layer to 16 channels, a relu, a dense
  layer back to 256 channels, each with a bias), the first on sd and the second on mu, their results concatenated and
  sent through a bottleneck layer with a relu, the third stage on that, and a logistic function 1 / (1 + exp (-z)) at
  the end. Both programs apply exactly these operations; the certificate never opens them.
-/
import proofs.«109344_j12446815224180_1_alg».proof.Proof.Gen.KernelIdeal

noncomputable section

namespace Cert.KernelIdeal.Hand

open Idealize.ShloMosaic Cert.KernelIdeal Cert.KernelIdeal.Gen

variable {F : FTy → Type} [FloatOps F]

/-- The gating mask from the two statistics and the parameters. -/
def maskOf (sd mu : FVec F S16x256 .f32)
    (p1 : FVec F S16x256 .f32) (p2 : FVec F S16 .f32) (p3 : FVec F S256x16 .f32) (p4 : FVec F S256 .f32)
    (p5 : FVec F S16x256 .f32) (p6 : FVec F S16 .f32) (p7 : FVec F S256x16 .f32) (p8 : FVec F S256 .f32)
    (p9 : FVec F S256x512 .f32) (p10 : FVec F S256 .f32)
    (p11 : FVec F S16x256 .f32) (p12 : FVec F S16 .f32) (p13 : FVec F S256x16 .f32) (p14 : FVec F S256 .f32) : FVec F S16x256 .f32 :=
  (Host.divf (broadcastInDim S16x256 ![] bcast_S_S16x256 (constant S_ .f32 0x3F800000#32)) (addf (broadcastInDim S16x256 ![] bcast_S_S16x256 (constant S_ .f32 0x3F800000#32)) (Host.exp (Host.negf (addf (Host.dotGeneral dot_S16x16_S256x16_S16x256_1_1_0_0_n_n none (maximumf (addf (Host.dotGeneral dot_S16x256_S16x256_S16x16_1_1_0_0_n_n none (maximumf (addf (Host.dotGeneral dot_S16x512_S256x512_S16x256_1_1_0_0_n_n none (concatenate S16x512 1 [⟨S16x256, (addf (Host.dotGeneral dot_S16x16_S256x16_S16x256_1_1_0_0_n_n none (maximumf (addf (Host.dotGeneral dot_S16x256_S16x256_S16x16_1_1_0_0_n_n none sd p1) (broadcastInDim S16x16 ![0, 1] bcast_S1x16_S16x16_0_1 (broadcastInDim S1x16 ![1] bcast_S16_S1x16_1 p2))) (broadcastInDim S16x16 ![] bcast_S_S16x16 (constant S_ .f32 0x00000000#32))) p3) (broadcastInDim S16x256 ![0, 1] bcast_S1x256_S16x256_0_1 (broadcastInDim S1x256 ![1] bcast_S256_S1x256_1 p4)))⟩, ⟨S16x256, (addf (Host.dotGeneral dot_S16x16_S256x16_S16x256_1_1_0_0_n_n none (maximumf (addf (Host.dotGeneral dot_S16x256_S16x256_S16x16_1_1_0_0_n_n none mu p5) (broadcastInDim S16x16 ![0, 1] bcast_S1x16_S16x16_0_1 (broadcastInDim S1x16 ![1] bcast_S16_S1x16_1 p6))) (broadcastInDim S16x16 ![] bcast_S_S16x16 (constant S_ .f32 0x00000000#32))) p7) (broadcastInDim S16x256 ![0, 1] bcast_S1x256_S16x256_0_1 (broadcastInDim S1x256 ![1] bcast_S256_S1x256_1 p8)))⟩] concatenates_S16x256_S16x256_S16x512_d1) p9) (broadcastInDim S16x256 ![0, 1] bcast_S1x256_S16x256_0_1 (broadcastInDim S1x256 ![1] bcast_S256_S1x256_1 p10))) (broadcastInDim S16x256 ![] bcast_S_S16x256 (constant S_ .f32 0x00000000#32))) p11) (broadcastInDim S16x16 ![0, 1] bcast_S1x16_S16x16_0_1 (broadcastInDim S1x16 ![1] bcast_S16_S1x16_1 p12))) (broadcastInDim S16x16 ![] bcast_S_S16x16 (constant S_ .f32 0x00000000#32))) p13) (broadcastInDim S16x256 ![0, 1] bcast_S1x256_S16x256_0_1 (broadcastInDim S1x256 ![1] bcast_S256_S1x256_1 p14)))))))

end Cert.KernelIdeal.Hand

end
-- ==== Proof.Ideal.Tail.lean ====
/-
  What the nine stretches of host operations between the two regions leave in the mask buffer: the mask function of the
  two statistics buffers as region 0 left them and of the fourteen parameter arrays as launched (no stretch and no region
  writes a parameter). Stated for any contents the regions may leave.
-/
import proofs.«109344_j12446815224180_1_alg».proof.Proof.Gen.KernelIdeal.Regions
import proofs.«109344_j12446815224180_1_alg».proof.Proof.Ideal.Mask
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (outs : Gen.Outs (F := F))

/-! ## What each stretch computes, from any contents -/

/-- The first stretch: a dense layer from 256 to 16 channels with its bias. -/
private theorem stretch1 (W : Valuation τ sig (Elt F)) {x p : FVec F S16x256 .f32} {q : FVec F S16 .f32}
    (hx : W main_v0_1 = x) (hp : W main_arg1 = p) (hq : W main_arg2 = q) :
    StableHlo.after hostOps1 W main_v4
      = (addf (Host.dotGeneral dot_S16x256_S16x256_S16x16_1_1_0_0_n_n none x p) (broadcastInDim S16x16 ![0, 1] bcast_S1x16_S16x16_0_1 (broadcastInDim S1x16 ![1] bcast_S16_S1x16_1 q)) : FVec F S16x16 .f32) := by
  subst hx hp hq
  dsimp only [hostOps1]
  after_results

/-- The second stretch: the maximum with zero. -/
private theorem stretch2 (W : Valuation τ sig (Elt F)) {z : FVec F S16x16 .f32}
    (hz : W main_v4 = z) :
    StableHlo.after hostOps1_1 W main_v5
      = (maximumf z (broadcastInDim S16x16 ![] bcast_S_S16x16 (constant S_ .f32 0x00000000#32)) : FVec F S16x16 .f32) := by
  subst hz
  dsimp only [hostOps1_1]
  after_results
  rfl

/-- The third stretch, first half: a dense layer from 16 back to 256 channels with its bias. -/
private theorem stretch3a (W : Valuation τ sig (Elt F)) {z : FVec F S16x16 .f32} {p : FVec F S256x16 .f32} {q : FVec F S256 .f32}
    (hz : W main_v5 = z) (hp : W main_arg3 = p) (hq : W main_arg4 = q) :
    StableHlo.after hostOps1_2 W main_v9
      = (addf (Host.dotGeneral dot_S16x16_S256x16_S16x256_1_1_0_0_n_n none z p) (broadcastInDim S16x256 ![0, 1] bcast_S1x256_S16x256_0_1 (broadcastInDim S1x256 ![1] bcast_S256_S1x256_1 q)) : FVec F S16x256 .f32) := by
  subst hz hp hq
  dsimp only [hostOps1_2]
  after_results

/-- The third stretch, second half: the dense layer from 256 to 16 channels on the other statistic. -/
private theorem stretch3b (W : Valuation τ sig (Elt F)) {x p : FVec F S16x256 .f32} {q : FVec F S16 .f32}
    (hx : W main_v0_0 = x) (hp : W main_arg5 = p) (hq : W main_arg6 = q) :
    StableHlo.after hostOps1_2 W main_v13
      = (addf (Host.dotGeneral dot_S16x256_S16x256_S16x16_1_1_0_0_n_n none x p) (broadcastInDim S16x16 ![0, 1] bcast_S1x16_S16x16_0_1 (broadcastInDim S1x16 ![1] bcast_S16_S1x16_1 q)) : FVec F S16x16 .f32) := by
  subst hx hp hq
  dsimp only [hostOps1_2]
  after_results

/-- The fourth stretch: the maximum with zero. -/
private theorem stretch4 (W : Valuation τ sig (Elt F)) {z : FVec F S16x16 .f32}
    (hz : W main_v13 = z) :
    StableHlo.after hostOps1_3 W main_v14
      = (maximumf z (broadcastInDim S16x16 ![] bcast_S_S16x16 (constant S_ .f32 0x00000000#32)) : FVec F S16x16 .f32) := by
  subst hz
  dsimp only [hostOps1_3]
  after_results
  rfl

/-- The fifth stretch: the second stage's dense layer back to 256 channels, the two stages concatenated, and the bottleneck layer from 512 to 256 channels with its bias. -/
private theorem stretch5 (W : Valuation τ sig (Elt F)) {z : FVec F S16x16 .f32} {p7 : FVec F S256x16 .f32} {p8 : FVec F S256 .f32} {y : FVec F S16x256 .f32} {p9 : FVec F S256x512 .f32} {p10 : FVec F S256 .f32}
    (hz : W main_v14 = z) (h7 : W main_arg7 = p7) (h8 : W main_arg8 = p8) (hy : W main_v9 = y) (h9 : W main_arg9 = p9) (h10 : W main_arg10 = p10) :
    StableHlo.after hostOps1_4 W main_v23
      = (addf (Host.dotGeneral dot_S16x512_S256x512_S16x256_1_1_0_0_n_n none (concatenate S16x512 1 [⟨S16x256, y⟩, ⟨S16x256, (addf (Host.dotGeneral dot_S16x16_S256x16_S16x256_1_1_0_0_n_n none z p7) (broadcastInDim S16x256 ![0, 1] bcast_S1x256_S16x256_0_1 (broadcastInDim S1x256 ![1] bcast_S256_S1x256_1 p8)))⟩] concatenates_S16x256_S16x256_S16x512_d1) p9) (broadcastInDim S16x256 ![0, 1] bcast_S1x256_S16x256_0_1 (broadcastInDim S1x256 ![1] bcast_S256_S1x256_1 p10)) : FVec F S16x256 .f32) := by
  subst hz h7 h8 hy h9 h10
  dsimp only [hostOps1_4]
  after_results

/-- The sixth stretch: the maximum with zero. -/
private theorem stretch6 (W : Valuation τ sig (Elt F)) {z : FVec F S16x256 .f32}
    (hz : W main_v23 = z) :
    StableHlo.after hostOps1_5 W main_v24
      = (maximumf z (broadcastInDim S16x256 ![] bcast_S_S16x256 (constant S_ .f32 0x00000000#32)) : FVec F S16x256 .f32) := by
  subst hz
  dsimp only [hostOps1_5]
  after_results
  rfl

/-- The seventh stretch: the third stage's dense layer from 256 to 16 channels with its bias. -/
private theorem stretch7 (W : Valuation τ sig (Elt F)) {x p : FVec F S16x256 .f32} {q : FVec F S16 .f32}
    (hx : W main_v24 = x) (hp : W main_arg11 = p) (hq : W main_arg12 = q) :
    StableHlo.after hostOps1_6 W main_v28
      = (addf (Host.dotGeneral dot_S16x256_S16x256_S16x16_1_1_0_0_n_n none x p) (broadcastInDim S16x16 ![0, 1] bcast_S1x16_S16x16_0_1 (broadcastInDim S1x16 ![1] bcast_S16_S1x16_1 q)) : FVec F S16x16 .f32) := by
  subst hx hp hq
  dsimp only [hostOps1_6]
  after_results

/-- The eighth stretch: the maximum with zero. -/
private theorem stretch8 (W : Valuation τ sig (Elt F)) {z : FVec F S16x16 .f32}
    (hz : W main_v28 = z) :
    StableHlo.after hostOps1_7 W main_v29
      = (maximumf z (broadcastInDim S16x16 ![] bcast_S_S16x16 (constant S_ .f32 0x00000000#32)) : FVec F S16x16 .f32) := by
  subst hz
  dsimp only [hostOps1_7]
  after_results
  rfl

/-- The ninth stretch: the third stage's dense layer back to 256 channels with its bias, then the logistic function 1 / (1 + exp (-z)). -/
private theorem stretch9 (W : Valuation τ sig (Elt F)) {z : FVec F S16x16 .f32} {p : FVec F S256x16 .f32} {q : FVec F S256 .f32}
    (hz : W main_v29 = z) (hp : W main_arg13 = p) (hq : W main_arg14 = q) :
    StableHlo.after hostOps1_8 W main_v39
      = (Host.divf (broadcastInDim S16x256 ![] bcast_S_S16x256 (constant S_ .f32 0x3F800000#32)) (addf (broadcastInDim S16x256 ![] bcast_S_S16x256 (constant S_ .f32 0x3F800000#32)) (Host.exp (Host.negf (addf (Host.dotGeneral dot_S16x16_S256x16_S16x256_1_1_0_0_n_n none z p) (broadcastInDim S16x256 ![0, 1] bcast_S1x256_S16x256_0_1 (broadcastInDim S1x256 ![1] bcast_S256_S1x256_1 q)))))) : FVec F S16x256 .f32) := by
  subst hz hp hq
  dsimp only [hostOps1_8]
  after_results

/-! ## The parameters are as launched throughout -/

/-- A reference that region 0 may not change is as launched after it. -/
private theorem keep1 (c : Dev nD) (r : Ref sig .tc) (h0 : r ∉ ([main_v0_0, main_v0_1] : List (Ref sig .tc))) :
    Gen.V1 m outs c r = m ((c : Thread nD τ).loc r) :=
  (V1_of m outs c r h0).trans rfl
/-- A reference that neither region 0 nor the first 1 stretch writes is as launched after them. -/
private theorem keep2 (c : Dev nD) (r : Ref sig .tc) (h0 : r ∉ ([main_v0_0, main_v0_1] : List (Ref sig .tc))) (h1 : r ∉ hostOps1_W) :
    Gen.V2 m outs c r = m ((c : Thread nD τ).loc r) :=
  (V2_of m outs c r h1).trans (keep1 m outs c r h0)
/-- A reference that neither region 0 nor the first 2 stretches write is as launched after them. -/
private theorem keep3 (c : Dev nD) (r : Ref sig .tc) (h0 : r ∉ ([main_v0_0, main_v0_1] : List (Ref sig .tc))) (h1 : r ∉ hostOps1_W) (h2 : r ∉ hostOps1_1_W) :
    Gen.V3 m outs c r = m ((c : Thread nD τ).loc r) :=
  (V3_of m outs c r h2).trans (keep2 m outs c r h0 h1)
/-- A reference that neither region 0 nor the first 3 stretches write is as launched after them. -/
private theorem keep4 (c : Dev nD) (r : Ref sig .tc) (h0 : r ∉ ([main_v0_0, main_v0_1] : List (Ref sig .tc))) (h1 : r ∉ hostOps1_W) (h2 : r ∉ hostOps1_1_W) (h3 : r ∉ hostOps1_2_W) :
    Gen.V4 m outs c r = m ((c : Thread nD τ).loc r) :=
  (V4_of m outs c r h3).trans (keep3 m outs c r h0 h1 h2)
/-- A reference that neither region 0 nor the first 4 stretches write is as launched after them. -/
private theorem keep5 (c : Dev nD) (r : Ref sig .tc) (h0 : r ∉ ([main_v0_0, main_v0_1] : List (Ref sig .tc))) (h1 : r ∉ hostOps1_W) (h2 : r ∉ hostOps1_1_W) (h3 : r ∉ hostOps1_2_W) (h4 : r ∉ hostOps1_3_W) :
    Gen.V5 m outs c r = m ((c : Thread nD τ).loc r) :=
  (V5_of m outs c r h4).trans (keep4 m outs c r h0 h1 h2 h3)
/-- A reference that neither region 0 nor the first 5 stretches write is as launched after them. -/
private theorem keep6 (c : Dev nD) (r : Ref sig .tc) (h0 : r ∉ ([main_v0_0, main_v0_1] : List (Ref sig .tc))) (h1 : r ∉ hostOps1_W) (h2 : r ∉ hostOps1_1_W) (h3 : r ∉ hostOps1_2_W) (h4 : r ∉ hostOps1_3_W) (h5 : r ∉ hostOps1_4_W) :
    Gen.V6 m outs c r = m ((c : Thread nD τ).loc r) :=
  (V6_of m outs c r h5).trans (keep5 m outs c r h0 h1 h2 h3 h4)
/-- A reference that neither region 0 nor the first 6 stretches write is as launched after them. -/
private theorem keep7 (c : Dev nD) (r : Ref sig .tc) (h0 : r ∉ ([main_v0_0, main_v0_1] : List (Ref sig .tc))) (h1 : r ∉ hostOps1_W) (h2 : r ∉ hostOps1_1_W) (h3 : r ∉ hostOps1_2_W) (h4 : r ∉ hostOps1_3_W) (h5 : r ∉ hostOps1_4_W) (h6 : r ∉ hostOps1_5_W) :
    Gen.V7 m outs c r = m ((c : Thread nD τ).loc r) :=
  (V7_of m outs c r h6).trans (keep6 m outs c r h0 h1 h2 h3 h4 h5)
/-- A reference that neither region 0 nor the first 7 stretches write is as launched after them. -/
private theorem keep8 (c : Dev nD) (r : Ref sig .tc) (h0 : r ∉ ([main_v0_0, main_v0_1] : List (Ref sig .tc))) (h1 : r ∉ hostOps1_W) (h2 : r ∉ hostOps1_1_W) (h3 : r ∉ hostOps1_2_W) (h4 : r ∉ hostOps1_3_W) (h5 : r ∉ hostOps1_4_W) (h6 : r ∉ hostOps1_5_W) (h7 : r ∉ hostOps1_6_W) :
    Gen.V8 m outs c r = m ((c : Thread nD τ).loc r) :=
  (V8_of m outs c r h7).trans (keep7 m outs c r h0 h1 h2 h3 h4 h5 h6)
/-- A reference that neither region 0 nor the first 8 stretches write is as launched after them. -/
private theorem keep9 (c : Dev nD) (r : Ref sig .tc) (h0 : r ∉ ([main_v0_0, main_v0_1] : List (Ref sig .tc))) (h1 : r ∉ hostOps1_W) (h2 : r ∉ hostOps1_1_W) (h3 : r ∉ hostOps1_2_W) (h4 : r ∉ hostOps1_3_W) (h5 : r ∉ hostOps1_4_W) (h6 : r ∉ hostOps1_5_W) (h7 : r ∉ hostOps1_6_W) (h8 : r ∉ hostOps1_7_W) :
    Gen.V9 m outs c r = m ((c : Thread nD τ).loc r) :=
  (V9_of m outs c r h8).trans (keep8 m outs c r h0 h1 h2 h3 h4 h5 h6 h7)

/-- The mask buffer when region 1 is entered. -/
theorem mask_val (c : Dev nD) :
    Gen.V10 m outs c main_v39
      = maskOf (F := F) (Gen.V1 m outs c main_v0_1) (Gen.V1 m outs c main_v0_0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e4 := stretch1 (Gen.V1 m outs c) rfl (keep1 m outs c main_arg1 (by decide)) (keep1 m outs c main_arg2 (by decide))
  have e5 := stretch2 (Gen.V2 m outs c) e4
  have e9 := stretch3a (Gen.V3 m outs c) e5 (keep3 m outs c main_arg3 (by decide) (by decide) (by decide)) (keep3 m outs c main_arg4 (by decide) (by decide) (by decide))
  have e13 := stretch3b (Gen.V3 m outs c)
    ((V3_of m outs c main_v0_0 (by decide)).trans (V2_of m outs c main_v0_0 (by decide)))
    (keep3 m outs c main_arg5 (by decide) (by decide) (by decide)) (keep3 m outs c main_arg6 (by decide) (by decide) (by decide))
  have e14 := stretch4 (Gen.V4 m outs c) e13
  have e23 := stretch5 (Gen.V5 m outs c) e14 (keep5 m outs c main_arg7 (by decide) (by decide) (by decide) (by decide) (by decide)) (keep5 m outs c main_arg8 (by decide) (by decide) (by decide) (by decide) (by decide))
    ((V5_of m outs c main_v9 (by decide)).trans e9) (keep5 m outs c main_arg9 (by decide) (by decide) (by decide) (by decide) (by decide)) (keep5 m outs c main_arg10 (by decide) (by decide) (by decide) (by decide) (by decide))
  have e24 := stretch6 (Gen.V6 m outs c) e23
  have e28 := stretch7 (Gen.V7 m outs c) e24 (keep7 m outs c main_arg11 (by decide) (by decide) (by decide) (by decide) (by decide) (by decide) (by decide)) (keep7 m outs c main_arg12 (by decide) (by decide) (by decide) (by decide) (by decide) (by decide) (by decide))
  have e29 := stretch8 (Gen.V8 m outs c) e28
  have e39 := stretch9 (Gen.V9 m outs c) e29 (keep9 m outs c main_arg13 (by decide) (by decide) (by decide) (by decide) (by decide) (by decide) (by decide) (by decide) (by decide)) (keep9 m outs c main_arg14 (by decide) (by decide) (by decide) (by decide) (by decide) (by decide) (by decide) (by decide) (by decide))
  exact e39

/-- The first argument is as launched when region 1 is entered. -/
theorem V10_main_arg0 (c : Dev nD) : Gen.V10 m outs c main_arg0 = m ((c : Thread nD τ).loc main_arg0) :=
  (V10_of m outs c main_arg0 (by decide)).trans <| (V9_of m outs c main_arg0 (by decide)).trans <|
  (V8_of m outs c main_arg0 (by decide)).trans <| (V7_of m outs c main_arg0 (by decide)).trans <|
  (V6_of m outs c main_arg0 (by decide)).trans <| (V5_of m outs c main_arg0 (by decide)).trans <|
  (V4_of m outs c main_arg0 (by decide)).trans <| (V3_of m outs c main_arg0 (by decide)).trans <|
  (V2_of m outs c main_arg0 (by decide)).trans <| (V1_of m outs c main_arg0 (by decide)).trans rfl

end Cert.KernelIdeal.Hand

end
-- ==== Proof.Ideal.Result.lean ====
/-
  The kernel program's result as a function of the launch memory, at the exact instance: x gated by the mask of the
  kernel's deviation array and the mean array of x and of the fourteen parameter arrays. Region 1's output is the gated
  array of its two inputs; its first input is x as launched and its second the mask buffer, which the host stretches
  computed from the two arrays region 0 left: the means and the kernel's deviations of x.
-/
import proofs.«109344_j12446815224180_1_alg».proof.Proof.Ideal.Launch
import proofs.«109344_j12446815224180_1_alg».proof.Proof.Ideal.StatsValue
import proofs.«109344_j12446815224180_1_alg».proof.Proof.Ideal.ScaleValue
import proofs.«109344_j12446815224180_1_alg».proof.Proof.Ideal.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The kernel program's result. -/
def kernelOut (c : Dev nD) : S16x256x128x128.Idx → EReal :=
  gated (m ((c : Thread nD τ).loc main_arg0))
    (maskOf (F := Ideal)
      (fun j => Cert.Spec.stdK (m ((c : Thread nD τ).loc main_arg0)) (j 0) (j 1))
      (fun j => Cert.Spec.meanAt (m ((c : Thread nD τ).loc main_arg0)) (j 0) (j 1))
      (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))

/-- What region 1's write-backs leave in the result array is the kernel program's result. -/
theorem kernel_out (c : Dev nD) : ((dat1 (F := Ideal) (Vin1 m) c).arrAt 2 cfg1.N : S16x256x128x128.Idx → EReal) = kernelOut m c := by
  have hx : (Vin1 m c main_arg0 : S16x256x128x128.Idx → EReal) = m ((c : Thread nD τ).loc main_arg0) := V10_main_arg0 m (outsPre m) c
  have hsd : (Gen.V1 m (outsPre m) c main_v0_1 : S16x256.Idx → EReal)
      = fun j => Cert.Spec.stdK (m ((c : Thread nD τ).loc main_arg0)) (j 0) (j 1) :=
    (V1_std m (outsPre m) (fun _ _ => rfl) c).trans (std_arr (Vin0 m) c)
  have hmu : (Gen.V1 m (outsPre m) c main_v0_0 : S16x256.Idx → EReal)
      = fun j => Cert.Spec.meanAt (m ((c : Thread nD τ).loc main_arg0)) (j 0) (j 1) :=
    (V1_mean m (outsPre m) (fun _ _ => rfl) c).trans (mean_arr (Vin0 m) c)
  have hmask : (Vin1 m c main_v39 : S16x256.Idx → EReal)
      = maskOf (F := Ideal)
          (fun j => Cert.Spec.stdK (m ((c : Thread nD τ).loc main_arg0)) (j 0) (j 1))
          (fun j => Cert.Spec.meanAt (m ((c : Thread nD τ).loc main_arg0)) (j 0) (j 1))
          (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
    refine (mask_val m (outsPre m) c).trans ?_
    rw [hsd, hmu]
    rfl
  rw [scale_arr (Vin1 m) c, hx, hmask]
  rfl

end Cert.KernelIdeal.Hand

end
-- ==== Proof.Ideal.Finite.lean ====
/-
  The precondition read at the first argument: every entry of x is a real number (neither infinity).
-/
import proofs.«109344_j12446815224180_1_alg».proof.Defs
import proofs.«109344_j12446815224180_1_alg».proof.Proof.Gen.Pre_finite_inputs
import proofs.«109344_j12446815224180_1_alg».proof.Proof.Spec
import Idealize.ShloMosaic.Lib.ReduceAll
import Idealize.ShloMosaic.PureOps.Ideal.Laws

set_option maxRecDepth 16384

noncomputable section

namespace Cert.KernelIdeal.Hand

open Idealize.ShloMosaic Idealize.SL.Sem

/-- The rank-0 shape has a single index. -/
private instance : Subsingleton Cert.Pre_finite_inputs.S_.Idx := ⟨fun a b => funext fun d => d.elim0⟩

/-- The f32 pattern 0x7F800000 (exponent all ones, significand zero, sign clear) denotes +inf. -/
private theorem ofBits_inf : Ideal.ofBits .f32 0x7F800000#32 = (⊤ : EReal) := by
  simp [Ideal.ofBits, Ideal.ieee]

/-- An extended real whose absolute value max x (-x) lies strictly below +inf is a real number:
    at +inf the maximum is +inf, at -inf its negation is +inf, and neither is below +inf. -/
private theorem real_of_abs_lt_top (x : EReal) (h : max x (-x) < ⊤) : ∃ r : ℝ, x = (r : EReal) := by
  induction x using EReal.rec with
  | bot => simp at h
  | coe r => exact ⟨r, rfl⟩
  | top => simp at h

/-- A boolean's word is 1 exactly when the boolean is true. -/
private theorem ofBool_eq_one {b : Bool} : BitVec.ofBool b = 1#1 ↔ b = true := by cases b <;> decide

/-- The same, from the comparison word: the ordered less-than of |x| against the +inf pattern is 1. -/
private theorem real_of_cmp (x : EReal)
    (e : Ideal.cmp .olt (max x (-x)) (Ideal.ofBits .f32 0x7F800000#32) = 1#1) : ∃ r : ℝ, x = (r : EReal) := by
  rw [ofBits_inf] at e
  refine real_of_abs_lt_top x ?_
  simpa [Ideal.cmp, ofBool_eq_one] using e

/-- Under the precondition every entry of the first argument is a real number. -/
theorem finite_x (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i : Cert.Spec.SX.Idx, ∃ r : ℝ,
      (m ((c.tc : Thread Cert.KernelIdeal.nD Cert.KernelIdeal.τ).loc Cert.KernelIdeal.main_arg0) : Cert.Spec.SX.Idx → EReal) i = (r : EReal) := by
  intro i
  -- the predicate's one result word, at the device c
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  -- the word is the conjunction, nested to the left, of fifteen reductions by and; the innermost left one is x's
  simp only [IntOp.andi_eq_one] at h0
  have h3 := h0.1.1.1.1.1.1.1.1.1.1.1.1.1.1
  -- a reduction by and over all axes that is 1 had a 1 at every index: the comparison |x i| < +inf holds at i
  have e := Host.reduce_andi_all _ _ _ _ _ h3 i
  exact real_of_cmp
    ((m ((c.tc : Thread Cert.KernelIdeal.nD Cert.KernelIdeal.τ).loc Cert.KernelIdeal.main_arg0) : Cert.Spec.SX.Idx → EReal) i) e

end Cert.KernelIdeal.Hand

end
-- ==== Proof.RefMask.lean ====
/-
  The reference's host computation after its two statistics, as ONE function of the deviation array sd, the mean array mu and
  the fourteen weight and bias arrays: three squeeze-and-excite stages (a dense layer to 16 channels, a relu, a dense
  layer back to 256 channels, each with a bias), the first on sd and the second on mu, their results concatenated and
  sent through a bottleneck layer with a relu, the third stage on that, and a logistic function 1 / (1 + exp (-z)) at
  the end. Both programs apply exactly these operations; the certificate never opens them.
-/
import proofs.«109344_j12446815224180_1_alg».proof.Proof.Gen.ReferenceIdeal

noncomputable section

namespace Cert.ReferenceIdeal.RefValue

open Idealize.ShloMosaic Cert.ReferenceIdeal Cert.ReferenceIdeal.Gen

variable {F : FTy → Type} [FloatOps F]

/-- The gating mask from the two statistics and the parameters. -/
def maskOf (sd mu : FVec F S16x256 .f32)
    (p1 : FVec F S16x256 .f32) (p2 : FVec F S16 .f32) (p3 : FVec F S256x16 .f32) (p4 : FVec F S256 .f32)
    (p5 : FVec F S16x256 .f32) (p6 : FVec F S16 .f32) (p7 : FVec F S256x16 .f32) (p8 : FVec F S256 .f32)
    (p9 : FVec F S256x512 .f32) (p10 : FVec F S256 .f32)
    (p11 : FVec F S16x256 .f32) (p12 : FVec F S16 .f32) (p13 : FVec F S256x16 .f32) (p14 : FVec F S256 .f32) : FVec F S16x256 .f32 :=
  (Host.divf (broadcastInDim S16x256 ![] bcast_S_S16x256 (constant S_ .f32 0x3F800000#32)) (addf (broadcastInDim S16x256 ![] bcast_S_S16x256 (constant S_ .f32 0x3F800000#32)) (Host.exp (Host.negf (addf (Host.dotGeneral dot_S16x16_S256x16_S16x256_1_1_0_0_n_n none (maximumf (addf (Host.dotGeneral dot_S16x256_S16x256_S16x16_1_1_0_0_n_n none (maximumf (addf (Host.dotGeneral dot_S16x512_S256x512_S16x256_1_1_0_0_n_n none (concatenate S16x512 1 [⟨S16x256, (addf (Host.dotGeneral dot_S16x16_S256x16_S16x256_1_1_0_0_n_n none (maximumf (addf (Host.dotGeneral dot_S16x256_S16x256_S16x16_1_1_0_0_n_n none sd p1) (broadcastInDim S16x16 ![0, 1] bcast_S1x16_S16x16_0_1 (broadcastInDim S1x16 ![1] bcast_S16_S1x16_1 p2))) (broadcastInDim S16x16 ![] bcast_S_S16x16 (constant S_ .f32 0x00000000#32))) p3) (broadcastInDim S16x256 ![0, 1] bcast_S1x256_S16x256_0_1 (broadcastInDim S1x256 ![1] bcast_S256_S1x256_1 p4)))⟩, ⟨S16x256, (addf (Host.dotGeneral dot_S16x16_S256x16_S16x256_1_1_0_0_n_n none (maximumf (addf (Host.dotGeneral dot_S16x256_S16x256_S16x16_1_1_0_0_n_n none mu p5) (broadcastInDim S16x16 ![0, 1] bcast_S1x16_S16x16_0_1 (broadcastInDim S1x16 ![1] bcast_S16_S1x16_1 p6))) (broadcastInDim S16x16 ![] bcast_S_S16x16 (constant S_ .f32 0x00000000#32))) p7) (broadcastInDim S16x256 ![0, 1] bcast_S1x256_S16x256_0_1 (broadcastInDim S1x256 ![1] bcast_S256_S1x256_1 p8)))⟩] concatenates_S16x256_S16x256_S16x512_d1) p9) (broadcastInDim S16x256 ![0, 1] bcast_S1x256_S16x256_0_1 (broadcastInDim S1x256 ![1] bcast_S256_S1x256_1 p10))) (broadcastInDim S16x256 ![] bcast_S_S16x256 (constant S_ .f32 0x00000000#32))) p11) (broadcastInDim S16x16 ![0, 1] bcast_S1x16_S16x16_0_1 (broadcastInDim S1x16 ![1] bcast_S16_S1x16_1 p12))) (broadcastInDim S16x16 ![] bcast_S_S16x16 (constant S_ .f32 0x00000000#32))) p13) (broadcastInDim S16x256 ![0, 1] bcast_S1x256_S16x256_0_1 (broadcastInDim S1x256 ![1] bcast_S256_S1x256_1 p14)))))))

end Cert.ReferenceIdeal.RefValue

end
-- ==== Proof.RefValue.lean ====
/-
  The reference at the exact instance: its result is x times its mask broadcast along the two spatial axes, where the mask is
  the mask function of the reference's deviation array (sqrt of the mean of the squared deviations from the mean) and of
  the mean array, both of x = the first argument, and of the fourteen parameter arrays.
-/
import proofs.«109344_j12446815224180_1_alg».proof.Proof.Gen.ReferenceIdeal.Run
import proofs.«109344_j12446815224180_1_alg».proof.Proof.Gen.ReferenceIdeal.Read
import proofs.«109344_j12446815224180_1_alg».proof.Proof.RefMask
import proofs.«109344_j12446815224180_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-- x gated by a per-(batch, channel) mask: entry (b, ch, h, w) is x[b, ch, h, w] * mask[b, ch]. -/
def gated (x : S16x256x128x128.Idx → EReal) (msk : S16x256.Idx → EReal) : S16x256x128x128.Idx → EReal :=
  fun i => x i * msk (ix2 (i 0) (i 1))

/-- The reference's result as a function of the launch memory. -/
def refOut (m : (ℓ : Loc nD τ sig) → Buf (Elt Ideal) ℓ) (c : Dev nD) : S16x256x128x128.Idx → EReal :=
  gated (m ((c.tc : Thread nD τ).loc main_arg0))
    (maskOf (F := Ideal)
      (fun j => Cert.Spec.stdR (m ((c.tc : Thread nD τ).loc main_arg0)) (j 0) (j 1))
      (fun j => Cert.Spec.meanAt (m ((c.tc : Thread nD τ).loc main_arg0)) (j 0) (j 1))
      (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))

/-! ## The sum over the two spatial axes at an index -/

/-- Dropping the two spatial coordinates of (a, b, h, w) leaves (a, b). -/
private theorem drop_ix4 (a : Fin 16) (b : Fin 256) (h : Fin 128) (w : Fin 128) :
    reducesTo_S16x256x128x128_S16x256_d2_3.drop (ix4 a b h w) = ix2 a b := by
  funext c; match c with | ⟨0, _⟩ => rfl | ⟨1, _⟩ => rfl

/-- An index is its own two kept coordinates followed by its two spatial coordinates. -/
private theorem ix4_drop (i : S16x256x128x128.Idx) :
    ix4 (reducesTo_S16x256x128x128_S16x256_d2_3.drop i 0) (reducesTo_S16x256x128x128_S16x256_d2_3.drop i 1) (i 2) (i 3) = i := by
  funext e; match e with | ⟨0, _⟩ => rfl | ⟨1, _⟩ => rfl | ⟨2, _⟩ => rfl | ⟨3, _⟩ => rfl

/-- The sum over axes 2 and 3 at (b, ch): the initial value plus the double sum over h and w of the entry at
    (b, ch, h, w). The indices that drop to j are exactly the (j 0, j 1, h, w), in bijection with the pairs (h, w). -/
private theorem reduce_hw (y : S16x256x128x128.Idx → EReal) (init : EReal) (j : S16x256.Idx) :
    Ideal.hostReduceAdd reducesTo_S16x256x128x128_S16x256_d2_3 y init j
      = init + ∑ h : Fin 128, ∑ w : Fin 128, y (ix4 (j 0) (j 1) h w) := by
  unfold Ideal.hostReduceAdd
  congr 1
  rw [← Finset.sum_product' Finset.univ Finset.univ (fun h w => y (ix4 (j 0) (j 1) h w))]
  refine Finset.sum_nbij' (fun i => (i 2, i 3)) (fun p => ix4 (j 0) (j 1) p.1 p.2) ?_ ?_ ?_ ?_ ?_
  · intro i _; exact Finset.mem_product.mpr ⟨Finset.mem_univ _, Finset.mem_univ _⟩
  · intro p _; exact Finset.mem_filter.mpr ⟨Finset.mem_univ _, (drop_ix4 _ _ _ _).trans (eq_ix2 j).symm⟩
  · intro i hi
    have hd := (Finset.mem_filter.mp hi).2
    subst hd
    exact ix4_drop i
  · intro p _; rfl
  · intro i hi
    have hd := (Finset.mem_filter.mp hi).2
    subst hd
    exact congrArg y (ix4_drop i).symm

/-! ## The two statistics -/

/-- Broadcasting a (batch, channel) array to 16 x 256 x 1 x 1 and then over the spatial axes reads it at (i 0, i 1). -/
private theorem idx_mean_back (i : S16x256x128x128.Idx) : Read.idx_main_v3 (Read.idx_main_v4 i) = ix2 (i 0) (i 1) :=
  funext fun a => Fin.ext (by match a with | ⟨0, _⟩ => rfl | ⟨1, _⟩ => rfl)

/-- The same for the mask's broadcast at the end. -/
private theorem idx_mask_back (i : S16x256x128x128.Idx) : Read.idx_main_v50 (Read.idx_main_v51 i) = ix2 (i 0) (i 1) :=
  funext fun a => Fin.ext (by match a with | ⟨0, _⟩ => rfl | ⟨1, _⟩ => rfl)

/-- The mean array: the spatial sum from zero, divided by the number of spatial positions. -/
private theorem mean_stage (x : FVec Ideal S16x256x128x128 .f32) :
    Read.val_main_v2 (F := Ideal) x = fun j => Cert.Spec.meanAt x (j 0) (j 1) := by
  funext j
  rw [Read.val_main_v2_apply, Read.val_main_v1_apply, Read.val_main_cst_0_apply]
  show Ideal.div (Ideal.hostReduceAdd reducesTo_S16x256x128x128_S16x256_d2_3 x (Ideal.ofBits .f32 0x00000000#32) j)
    (Ideal.ofBits .f32 0x46800000#32) = _
  rw [reduce_hw, Ideal.ofBits_zero_f32, zero_add]
  rfl

/-- The squared deviation from the mean, entry by entry: the mean is read back at the entry's (batch, channel). -/
private theorem sqdev_stage (x : FVec Ideal S16x256x128x128 .f32) :
    Read.val_main_v6 (F := Ideal) x
      = fun i => (x i - Cert.Spec.meanAt x (i 0) (i 1)) * (x i - Cert.Spec.meanAt x (i 0) (i 1)) := by
  funext i
  rw [Read.val_main_v6_apply, Read.val_main_v5_apply, Read.val_main_v4_apply, Read.val_main_v3_apply, idx_mean_back,
    mean_stage]
  rfl

/-- The deviation array: the square root of the spatial mean of the squared deviations. -/
private theorem std_stage (x : FVec Ideal S16x256x128x128 .f32) :
    Read.val_main_v10 (F := Ideal) x = fun j => Cert.Spec.stdR x (j 0) (j 1) := by
  funext j
  rw [Read.val_main_v10_apply, Read.val_main_v9_apply, Read.val_main_v8_apply, Read.val_main_cst_2_apply]
  show Ideal.sqrt (Ideal.div (Ideal.hostReduceAdd reducesTo_S16x256x128x128_S16x256_d2_3 (Read.val_main_v6 (F := Ideal) x)
    (Ideal.ofBits .f32 0x00000000#32) j) (Ideal.ofBits .f32 0x46800000#32)) = _
  rw [reduce_hw, Ideal.ofBits_zero_f32, zero_add, sqdev_stage]
  rfl

/-! ## The result -/

/-- Everything between the two statistics and the last broadcast is the mask function of them, operation for operation. -/
private theorem mask_stage (x : FVec Ideal S16x256x128x128 .f32)
    (p1 : FVec Ideal S16x256 .f32) (p2 : FVec Ideal S16 .f32) (p3 : FVec Ideal S256x16 .f32) (p4 : FVec Ideal S256 .f32)
    (p5 : FVec Ideal S16x256 .f32) (p6 : FVec Ideal S16 .f32) (p7 : FVec Ideal S256x16 .f32) (p8 : FVec Ideal S256 .f32)
    (p9 : FVec Ideal S256x512 .f32) (p10 : FVec Ideal S256 .f32)
    (p11 : FVec Ideal S16x256 .f32) (p12 : FVec Ideal S16 .f32) (p13 : FVec Ideal S256x16 .f32) (p14 : FVec Ideal S256 .f32) :
    Read.val_main_v49 (F := Ideal) x p1 p2 p3 p4 p5 p6 p7 p8 p9 p10 p11 p12 p13 p14
      = maskOf (F := Ideal) (Read.val_main_v10 (F := Ideal) x) (Read.val_main_v2 (F := Ideal) x)
          p1 p2 p3 p4 p5 p6 p7 p8 p9 p10 p11 p12 p13 p14 := rfl

/-- The reference's result: x times the mask of its two statistics, the mask read at the entry's (batch, channel). -/
private theorem result_stage (x : FVec Ideal S16x256x128x128 .f32)
    (p1 : FVec Ideal S16x256 .f32) (p2 : FVec Ideal S16 .f32) (p3 : FVec Ideal S256x16 .f32) (p4 : FVec Ideal S256 .f32)
    (p5 : FVec Ideal S16x256 .f32) (p6 : FVec Ideal S16 .f32) (p7 : FVec Ideal S256x16 .f32) (p8 : FVec Ideal S256 .f32)
    (p9 : FVec Ideal S256x512 .f32) (p10 : FVec Ideal S256 .f32)
    (p11 : FVec Ideal S16x256 .f32) (p12 : FVec Ideal S16 .f32) (p13 : FVec Ideal S256x16 .f32) (p14 : FVec Ideal S256 .f32) :
    Read.val_main_v52 (F := Ideal) x p1 p2 p3 p4 p5 p6 p7 p8 p9 p10 p11 p12 p13 p14
      = gated x (maskOf (F := Ideal) (fun j => Cert.Spec.stdR x (j 0) (j 1)) (fun j => Cert.Spec.meanAt x (j 0) (j 1))
          p1 p2 p3 p4 p5 p6 p7 p8 p9 p10 p11 p12 p13 p14) := by
  funext i
  rw [Read.val_main_v52_apply, Read.val_main_v51_apply, Read.val_main_v50_apply, idx_mask_back, mask_stage, std_stage,
    mean_stage]
  rfl

/-- Every weakly fair execution of the reference terminates with its result at refOut of the launch memory and its
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (defs (F := Ideal)) _ _).mono (fun r h c =>
      ⟨((h c).1.trans (Read.val_main_v52_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))).trans
          (result_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))),
        (h c).2⟩)
    (Cert.ReferenceIdeal.Value.run (F := Ideal) m ρ)

end Cert.ReferenceIdeal.RefValue

end
-- ==== Proof.lean ====
/-
  The kernel computes, per batch index and channel, the spatial mean and a standard deviation of x in one pass over x
  (sums of x and of x*x accumulated over 16 row strips, std = sqrt (max (E[x^2] - E[x]^2) 0)), sends the two statistics
  through three small dense stages and a logistic function on the host to get a mask, and multiplies x by the mask in a
  second pass. The reference computes the mean, then std = sqrt (E[(x - E x)^2]), then the same host stages and the same
  product. On the extended reals the two standard deviations agree wherever x is finite (the square expands, and a mean of
  squares is nonnegative, so the clamp at zero is idle): that is the one law this certificate needs, and it is where the
  precondition is used. Everything after the statistics is the same function on both sides and is never opened.
  The three frames: both kernel programs run their two pipelines to the end, faulting nowhere, and write no argument
  (the statistics region carries its two accumulators from grid point to grid point in its invariant); the reference is
  host operations only.
-/
import proofs.«109344_j12446815224180_1_alg».proof.Defs
import proofs.«109344_j12446815224180_1_alg».proof.Proof.Gen.Kernel
import proofs.«109344_j12446815224180_1_alg».proof.Proof.Gen.KernelIdeal
import proofs.«109344_j12446815224180_1_alg».proof.Proof.Gen.ReferenceIdeal
import proofs.«109344_j12446815224180_1_alg».proof.Proof.Gen.Pre_finite_inputs
import proofs.«109344_j12446815224180_1_alg».proof.Proof.Gen.ReferenceIdeal.Run
import proofs.«109344_j12446815224180_1_alg».proof.Proof.Gen.ReferenceIdeal.Read
import proofs.«109344_j12446815224180_1_alg».proof.Proof.Bits.Launch
import proofs.«109344_j12446815224180_1_alg».proof.Proof.Ideal.Launch
import proofs.«109344_j12446815224180_1_alg».proof.Proof.Ideal.Result
import proofs.«109344_j12446815224180_1_alg».proof.Proof.Ideal.Finite
import proofs.«109344_j12446815224180_1_alg».proof.Proof.RefValue
import proofs.«109344_j12446815224180_1_alg».proof.Proof.Spec
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two programs' results are one function of arguments that agree: the gated arrays and the mask functions are the
    same functions, the means are the same, and the two deviations agree because x is finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.kernelOut m c, ?_, ?_⟩
  · exact (θ_run Cert.KernelIdeal.defs _ _).mono
      (fun r h c => ⟨(h c).1.trans (Cert.KernelIdeal.Hand.kernel_out m c), (h c).2⟩)
      (Cert.KernelIdeal.Hand.result_run (F := Ideal) m ρ)
  · refine (θ_run Cert.ReferenceIdeal.defs _ _).mono (fun r h c => ⟨(h c).1.trans ?_, (h c).2⟩)
      (Cert.ReferenceIdeal.RefValue.ref_run m' ρ')
    have hsd : (fun j : Cert.Spec.SBC.Idx => Cert.Spec.stdR (m ((c.tc : Thread Cert.KernelIdeal.nD Cert.KernelIdeal.τ).loc Cert.KernelIdeal.main_arg0)) (j 0) (j 1))
        = fun j => Cert.Spec.stdK (m ((c.tc : Thread Cert.KernelIdeal.nD Cert.KernelIdeal.τ).loc Cert.KernelIdeal.main_arg0)) (j 0) (j 1) :=
      funext fun j => (Cert.Spec.stdK_eq_stdR _ (Cert.KernelIdeal.Hand.finite_x m hpre c) (j 0) (j 1)).symm
    unfold Cert.ReferenceIdeal.RefValue.refOut Cert.KernelIdeal.Hand.kernelOut
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact congrArg (fun sd => Cert.KernelIdeal.Hand.gated _ (Cert.KernelIdeal.Hand.maskOf (F := Ideal) sd _ _ _ _ _ _ _ _ _ _ _ _ _ _ _)) hsd

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
